-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128x128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S128 : Shape := ⟨1, ![128]⟩

abbrev nBuf : Space → Nat
  | .hbm => 95
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000x128, .f32⟩
  | .hbm, ⟨10, _⟩ => ⟨S_, .f32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_11 : Ref sig .tc := ⟨.hbm, 66, rfl⟩
abbrev main_v48 : Ref sig .tc := ⟨.hbm, 67, rfl⟩
abbrev main_v49 : Ref sig .tc := ⟨.hbm, 68, rfl⟩
abbrev main_c_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_14 : Ref sig .tc := ⟨.hbm, 79, rfl⟩
abbrev main_v58 : Ref sig .tc := ⟨.hbm, 80, rfl⟩
abbrev main_v59 : Ref sig .tc := ⟨.hbm, 81, rfl⟩
abbrev main_c_15 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem5_1 : DmaSem sig := 34
abbrev cc4_sem0_0 : DmaSem sig := 35
abbrev cc4_sem0_1 : DmaSem sig := 36
abbrev cc4_sem1_0 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v12 : BitVec 1 := Scalar.cmpi .eq arg0 c19_i32
  let v13 : BitVec 32 := Scalar.extui v12
  let c0_i32_6 : BitVec 32 := 0#32
  let v14 : BitVec 1 := Scalar.cmpi .ne v13 c0_i32_6
  v14

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S5000x128_S128 : S5000x128.Reduces [0] S128
  shapeCasts_S128_S1x128 : S128.ShapeCasts S1x128
  shapeCasts_S1x128_S128 : S1x128.ShapeCasts S128
  dot_S5000x128_S128x128_S5000x128_1_1_0_0_n_n_wf : DotDims.WF S5000x128 S128x128 S5000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)

variable [Facts₀]

def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v4) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg4) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S1x128.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev idle4 : Fin 2 → grid4.Coords → Bool := fun | 0 => fun _ => false | 1 => fun i => !(k4_cond2 i == 1#1) | ⟨_ + 2, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128 : Shape := ⟨1, ![128]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S128x128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x128, .f32⟩
  | .hbm, ⟨105, _⟩ => ⟨S_, .f32⟩
  | .hbm, ⟨106, _⟩ => ⟨S100000x128, .f32⟩
  | .hbm, ⟨107, _⟩ => ⟨S1600000x1, .i32⟩
  | .hbm, ⟨108, _⟩ => ⟨S100000x128, .f32⟩
  | .hbm, ⟨109, _⟩ => ⟨S128x128, .f32⟩
  | .hbm, ⟨110, _⟩ => ⟨S100000x128, .f32⟩
  | .hbm, ⟨111, _⟩ => ⟨S100000x128, .f32⟩
  | .hbm, ⟨112, _⟩ => ⟨S128x128, .f32⟩
  | .hbm, ⟨113, _⟩ => ⟨S100000x128, .f32⟩
  | .hbm, ⟨114, _⟩ => ⟨S100000x128, .f32⟩
  | .hbm, ⟨115, _⟩ => ⟨S_, .f32⟩
  | .hbm, ⟨116, _⟩ => ⟨S100000x128, .f32⟩
  | .hbm, ⟨117, _⟩ => ⟨S100000x128, .f32⟩
  | .hbm, ⟨118, _⟩ => ⟨S_, .f32⟩
  | .hbm, ⟨119, _⟩ => ⟨S128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_cst : Ref sig .tc := ⟨.hbm, 45, rfl⟩
abbrev main_call0_v0 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call1_cst : Ref sig .tc := ⟨.hbm, 80, rfl⟩
abbrev main_call1_v0 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_14 : Ref sig .tc := ⟨.hbm, 96, rfl⟩
abbrev main_v71 : Ref sig .tc := ⟨.hbm, 97, rfl⟩
abbrev main_v72 : Ref sig .tc := ⟨.hbm, 98, rfl⟩
abbrev main_c_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call2_cst : Ref sig .tc := ⟨.hbm, 115, rfl⟩
abbrev main_call2_v0 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S100000x128_S128_d0 : S100000x128.ReducesTo [0] S128
  h_S_ : 0 < S_.numel
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.K.Reg0.lean ====
/- REGION 0 of the program: the embedding call. The 100000x128 table of node features is cut into 20 tiles of
   5000 rows; at grid point t the call is handed tile t of the features (window 0), the whole 128x128 weight matrix
   (window 1, brought in once, at the first point, and kept in place afterwards) and writes tile t of the result
   (window 2): the tile times the transposed weights, the 128-long axis contracted. This module states, at ANY
   contents V of the core's buffers when the region is entered, what each window's block is at a point, what the
   body leaves in the output tile's buffer (its one whole-buffer store), the body's triple, and the pipeline's proof
   data with its body obligation. It is generic in the float family. -/
import proofs.«141754_j13958643712644_1_alg».proof.Proof.Gen.Kernel.Launch
import proofs.«141754_j13958643712644_1_alg».proof.Proof.Gen.Kernel.Skeleton
import proofs.«141754_j13958643712644_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's buffer holds tile t at point t (it is brought in at every point), for any proof data over
    the entry contents whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point: it is brought in at the first point only, the
    body leaves it in place, and its block index never moves, so what a fetch would bring is what is there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-! ## What the body leaves in the output tile's buffer -/

/-- The output tile's buffer after the body, from the two inputs' blocks: one store of the whole tile, the product of
    the feature tile with the transposed weights. -/
def out0_2 (x0 : Vec F S5000x128 .f32) (x1 : Vec F S128x128 .f32) : Vec F S5000x128 .f32 :=
  View.canon [⟨r0_0, k0_pay1 (View.ld x0 r0_0) (View.ld x1 r0_1)⟩]

/-- The one store is of the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The body on whole buffers, the two inputs' at contents x0 and x1 and the output's at anything, runs to the
    continuation holding the inputs' as they were and the output's at out0_2 of them. The body also reads the output
    buffer before storing into it; the value read is not used. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__embed_kernel i arg1 harg1 arg2 harg2 arg3 harg3) K := by
  simp only [cc0__embed_kernel_eq_skeleton]; unfold cc0__embed_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core c: the arrays as the region finds them; after the body at point t the two
    inputs' buffers at their blocks and the output's at out0_2 of them; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Reg1.lean ====
/- Region 1 of the message-passing network (custom_call 1): one round of the update
     mu = relu(x_emb + msg_in · W2ᵀ + msg_out · W3ᵀ),
   computed tile by tile over 20 grid points. Windows 0, 1, 2 are the 5000-row tiles of x_emb, msg_in and msg_out
   (a new tile at every point); windows 3 and 4 are the two 128×128 weight matrices, whole (brought in once, at the
   first point, and found in place afterwards); window 5 is the 5000-row output tile, written back at every point.
   The body reads the five input tiles, reads the output tile (a value nothing uses) and overwrites the output tile
   whole with the payload of the five inputs. This module states, at an arbitrary content V of the core's buffers
   when the region is entered: each window's block at a point, what the body leaves in the output tile, the body's
   triple, the pipeline's proof data and its body obligation. Everything is generic in the float family. -/
import proofs.«141754_j13958643712644_1_alg».proof.Proof.Gen.Kernel.Launch
import proofs.«141754_j13958643712644_1_alg».proof.Proof.Gen.Kernel.Skeleton
import proofs.«141754_j13958643712644_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 5000 rows long is decided by a recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds the window's block at every point, whether the block was brought in at
    that point or earlier (then the block index has not moved since): for any proof data whose array is V's and
    whose body leaves the block in place. The five input windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, whole -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0

/-! ## What the body leaves in the output window's buffer -/

/-- The output tile after the body, from the five input blocks: one store, of the whole tile, of
    relu(x0 + x1 · x3ᵀ + x2 · x4ᵀ) as the payload spells it. -/
def out1_5 (x0 x1 x2 : Vec F S5000x128 .f32) (x3 x4 : Vec F S128x128 .f32) : Vec F S5000x128 .f32 :=
  View.canon [⟨r1_0, k1_pay1 (View.ld x0 r1_0) (View.ld x1 r1_0) (View.ld x2 r1_0) (View.ld x3 r1_1) (View.ld x4 r1_1)⟩]

/-- The one store covers the tile. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The body on whole buffers, the inputs' at contents x0 … x4 and the output's at anything, runs to the
    continuation with the inputs as they were and the output at out1_5 of them: five loads, a load of the output
    whose value is dropped, and the store. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S5000x128 .f32) (harg6 : arg6.IsWhole)
    (x0 x1 x2 : Vec F S5000x128 .f32) (x3 x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__update_kernel i arg1 harg1 arg2 harg2 arg3 harg3 arg4 harg4 arg5 harg5 arg6 harg6) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core c: the arrays as the region finds them (V); after the body at
    point t each input's buffer at its block and the output's at out1_5 of the five input blocks; the invariant
    that leaves the rest of the core untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- Region 2 of the message-passing network (custom_call 2): one round of the update
     mu = relu(x_emb + msg_in · W2ᵀ + msg_out · W3ᵀ),
   computed tile by tile over 20 grid points. Windows 0, 1, 2 are the 5000-row tiles of x_emb, msg_in and msg_out
   (a new tile at every point); windows 3 and 4 are the two 128×128 weight matrices, whole (brought in once, at the
   first point, and found in place afterwards); window 5 is the 5000-row output tile, written back at every point.
   The body reads the five input tiles, reads the output tile (a value nothing uses) and overwrites the output tile
   whole with the payload of the five inputs. This module states, at an arbitrary content V of the core's buffers
   when the region is entered: each window's block at a point, what the body leaves in the output tile, the body's
   triple, the pipeline's proof data and its body obligation. Everything is generic in the float family. -/
import proofs.«141754_j13958643712644_1_alg».proof.Proof.Gen.Kernel.Launch
import proofs.«141754_j13958643712644_1_alg».proof.Proof.Gen.Kernel.Skeleton
import proofs.«141754_j13958643712644_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 5000 rows long is decided by a recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds the window's block at every point, whether the block was brought in at
    that point or earlier (then the block index has not moved since): for any proof data whose array is V's and
    whose body leaves the block in place. The five input windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read, and the output written, whole -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0

/-! ## What the body leaves in the output window's buffer -/

/-- The output tile after the body, from the five input blocks: one store, of the whole tile, of
    relu(x0 + x1 · x3ᵀ + x2 · x4ᵀ) as the payload spells it. -/
def out2_5 (x0 x1 x2 : Vec F S5000x128 .f32) (x3 x4 : Vec F S128x128 .f32) : Vec F S5000x128 .f32 :=
  View.canon [⟨r2_0, k2_pay1 (View.ld x0 r2_0) (View.ld x1 r2_0) (View.ld x2 r2_0) (View.ld x3 r2_1) (View.ld x4 r2_1)⟩]

/-- The one store covers the tile. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The body on whole buffers, the inputs' at contents x0 … x4 and the output's at anything, runs to the
    continuation with the inputs as they were and the output at out2_5 of them: five loads, a load of the output
    whose value is dropped, and the store. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S5000x128 .f32) (harg6 : arg6.IsWhole)
    (x0 x1 x2 : Vec F S5000x128 .f32) (x3 x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__update_kernel i arg1 harg1 arg2 harg2 arg3 harg3 arg4 harg4 arg5 harg5 arg6 harg6) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the region's pipeline on core c: the arrays as the region finds them (V); after the body at
    point t each input's buffer at its block and the output's at out2_5 of the five input blocks; the invariant
    that leaves the rest of the core untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/- Region 3 of the message-passing network (custom_call 3): one round of the update
     mu = relu(x_emb + msg_in · W2ᵀ + msg_out · W3ᵀ),
   computed tile by tile over 20 grid points. Windows 0, 1, 2 are the 5000-row tiles of x_emb, msg_in and msg_out
   (a new tile at every point); windows 3 and 4 are the two 128×128 weight matrices, whole (brought in once, at the
   first point, and found in place afterwards); window 5 is the 5000-row output tile, written back at every point.
   The body reads the five input tiles, reads the output tile (a value nothing uses) and overwrites the output tile
   whole with the payload of the five inputs. This module states, at an arbitrary content V of the core's buffers
   when the region is entered: each window's block at a point, what the body leaves in the output tile, the body's
   triple, the pipeline's proof data and its body obligation. Everything is generic in the float family. -/
import proofs.«141754_j13958643712644_1_alg».proof.Proof.Gen.Kernel.Launch
import proofs.«141754_j13958643712644_1_alg».proof.Proof.Gen.Kernel.Skeleton
import proofs.«141754_j13958643712644_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 5000 rows long is decided by a recursion once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds the window's block at every point, whether the block was brought in at
    that point or earlier (then the block index has not moved since): for any proof data whose array is V's and
    whose body leaves the block in place. The five input windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read, and the output written, whole -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

/-! ## What the body leaves in the output window's buffer -/

/-- The output tile after the body, from the five input blocks: one store, of the whole tile, of
    relu(x0 + x1 · x3ᵀ + x2 · x4ᵀ) as the payload spells it. -/
def out3_5 (x0 x1 x2 : Vec F S5000x128 .f32) (x3 x4 : Vec F S128x128 .f32) : Vec F S5000x128 .f32 :=
  View.canon [⟨r3_0, k3_pay1 (View.ld x0 r3_0) (View.ld x1 r3_0) (View.ld x2 r3_0) (View.ld x3 r3_1) (View.ld x4 r3_1)⟩]

/-- The one store covers the tile. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The body on whole buffers, the inputs' at contents x0 … x4 and the output's at anything, runs to the
    continuation with the inputs as they were and the output at out3_5 of them: five loads, a load of the output
    whose value is dropped, and the store. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S5000x128 .f32) (harg6 : arg6.IsWhole)
    (x0 x1 x2 : Vec F S5000x128 .f32) (x3 x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__update_kernel i arg1 harg1 arg2 harg2 arg3 harg3 arg4 harg4 arg5 harg5 arg6 harg6) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the region's pipeline on core c: the arrays as the region finds them (V); after the body at
    point t each input's buffer at its block and the output's at out3_5 of the five input blocks; the invariant
    that leaves the rest of the core untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  REGION 4 of @main: the column-sum reduction (custom_call 4, pipeline 4), at the entry contents `V`.

  The mathematics. The region walks the 20 row tiles of the [100000, 128] array of node states, one tile
  [5000, 128] per grid point (window 0, fetched at every point), and keeps a running [1, 128] row of column sums
  in a scratch buffer of its own that lives across the grid points: at the first point the scratch is zeroed; at
  every point the tile's column sums are added to it; at the last point the scratch is copied into the [1, 128]
  output block (window 1), which is written back there and nowhere else — at every other point the output window
  is idle: its buffer is handed back as it was found.

  So what the scratch holds after point n is the recursion `acc4`: after point 0 the first tile's column sums
  added to the zero row, after point n + 1 the tile's column sums added to what point n left. The region invariant
  names the scratch's contents between points (before the first point the scratch is at anything), and the output
  block written back at the last point is `acc4` there.
-/
import proofs.«141754_j13958643712644_1_alg».proof.Proof.Gen.Kernel.Launch
import proofs.«141754_j13958643712644_1_alg».proof.Proof.Gen.Kernel.Skeleton
import proofs.«141754_j13958643712644_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The first-point condition of the body, from the grid coordinates. -/
abbrev cond4_0 (i : grid4.Coords) : Prop :=
  (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 20 = 0 :=
  (by decide +kernel : ∀ t : Fin grid4.N, cond4_0 (grid4.coords t) ↔ t.val % 20 = 0)

/-- The last-point condition of the body. -/
abbrev cond4_1 (i : grid4.Coords) : Prop := k4_cond2 i = 1#1
/-- It holds at the last point only. -/
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle -/

/-- The tile window is never idle. -/
theorem liveAt4_0 : ∀ t : Fin cfg4.N, cfg4.idle 0 (grid4.coords t) = false := by decide +kernel
/-- Off the last point the output window is idle, -/
theorem idleAt4_1 : ∀ t : Fin cfg4.N, ¬cond4_1 (grid4.coords t) → cfg4.idle 1 (grid4.coords t) = true := by decide +kernel
/-- and not written back; -/
theorem noFlush4_1 : ∀ t : Fin cfg4.N, ¬cond4_1 (grid4.coords t) → (cfg4.win 1).flush t = false := by decide +kernel
/-- at the last point it is live. -/
theorem liveAt4_1 : ∀ t : Fin cfg4.N, cond4_1 (grid4.coords t) → cfg4.idle 1 (grid4.coords t) = false := by decide +kernel

/-! ## The body's accesses: each a whole buffer -/

theorem off2_zero : (![0, 0] : Fin 2 → Nat) = fun _ => 0 := by
  funext a; fin_cases a <;> rfl

/-! ## The body on whole memrefs, in each of its three cases -/

set_option maxHeartbeats 1000000 in
/-- FIRST POINT (the first conditional taken, the last not): the scratch, found at anything, is zeroed, the tile's
    column sums are added; the output's buffer is handed back untouched. -/
theorem run4_first (c : Dev nD) (i : grid4.Coords) (E : Set ℕ)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (hc0 : cond4_0 i) (hc1 : ¬cond4_1 i)
    (x0 : Vec F S5000x128 .f32) (xi1 : Vec F S1x128 .f32) (K : PUnit → sProp 𝕄) :
    iprop(owns (c : Thread nD τ) arg1 fullShare x0 ∗ owns (c : Thread nD τ) arg2 fullShare xi1
        ∗ (∃ d, owns (c : Thread nD τ) arg3 fullShare d)
        ∗ (iprop(owns (c : Thread nD τ) arg1 fullShare x0 ∗ owns (c : Thread nD τ) arg2 fullShare xi1
            ∗ owns (c : Thread nD τ) arg3 fullShare (k4_pay2 (k4_pay1 (F := F)) x0)) -∗ K ⟨⟩))
      ⊢ wp frame (wpE (defs₀ (F := F)) Variants.none c none) E (cc4__reduce_kernel i arg1 harg1 arg2 harg2 arg3 harg3) K := by
  simp only [cc4__reduce_kernel_eq_skeleton]; unfold cc4__reduce_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  refine (View.read_writes_eq_canon _ _ _ (fun y => ⟨_, List.mem_cons_self, View.mem_set_unit_zero off2_zero inb_S1x128_S1x128_0_0 y⟩)).trans ?_
  rw [View.canon_cons_unit_zero off2_zero]
  sl_unfold_run_names
  rw [View.readCov_unit_zero _ off2_zero, View.readAt_eq_ld, hf0, View.ld_unit_zero off2_zero]

set_option maxHeartbeats 1000000 in
/-- A MIDDLE POINT (neither conditional taken): the tile's column sums are added to what the point before left in
    the scratch; the output's buffer is handed back untouched. -/
theorem run4_mid (c : Dev nD) (i : grid4.Coords) (E : Set ℕ)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (hc0 : ¬cond4_0 i) (hc1 : ¬cond4_1 i)
    (x0 : Vec F S5000x128 .f32) (xi1 : Vec F S1x128 .f32) (xs : Vec F S1x128 .f32) (K : PUnit → sProp 𝕄) :
    iprop(owns (c : Thread nD τ) arg1 fullShare x0 ∗ owns (c : Thread nD τ) arg2 fullShare xi1
        ∗ owns (c : Thread nD τ) arg3 fullShare xs
        ∗ (iprop(owns (c : Thread nD τ) arg1 fullShare x0 ∗ owns (c : Thread nD τ) arg2 fullShare xi1
            ∗ owns (c : Thread nD τ) arg3 fullShare (k4_pay2 xs x0)) -∗ K ⟨⟩))
      ⊢ wp frame (wpE (defs₀ (F := F)) Variants.none c none) E (cc4__reduce_kernel i arg1 harg1 arg2 harg2 arg3 harg3) K := by
  simp only [cc4__reduce_kernel_eq_skeleton]; unfold cc4__reduce_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  refine (View.read_writes_eq_canon _ _ _ (fun y => ⟨_, List.mem_cons_self, View.mem_set_unit_zero off2_zero inb_S1x128_S1x128_0_0 y⟩)).trans ?_
  rw [View.canon_cons_unit_zero off2_zero]
  sl_unfold_run_names
  rw [View.readAt_eq_ld, View.readAt_eq_ld, hfs0, hf0, View.ld_unit_zero off2_zero, View.ld_unit_zero off2_zero]

set_option maxHeartbeats 1000000 in
/-- THE LAST POINT (the first conditional not taken, the last taken): the tile's column sums are added to what the
    point before left in the scratch, and the scratch is copied into the output's buffer, found at anything. -/
theorem run4_last (c : Dev nD) (i : grid4.Coords) (E : Set ℕ)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (hc0 : ¬cond4_0 i) (hc1 : cond4_1 i)
    (x0 : Vec F S5000x128 .f32) (xs : Vec F S1x128 .f32) (K : PUnit → sProp 𝕄) :
    iprop(owns (c : Thread nD τ) arg1 fullShare x0 ∗ (∃ d, owns (c : Thread nD τ) arg2 fullShare d)
        ∗ owns (c : Thread nD τ) arg3 fullShare xs
        ∗ (iprop(owns (c : Thread nD τ) arg1 fullShare x0 ∗ owns (c : Thread nD τ) arg2 fullShare (k4_pay2 xs x0)
            ∗ owns (c : Thread nD τ) arg3 fullShare (k4_pay2 xs x0)) -∗ K ⟨⟩))
      ⊢ wp frame (wpE (defs₀ (F := F)) Variants.none c none) E (cc4__reduce_kernel i arg1 harg1 arg2 harg2 arg3 harg3) K := by
  simp only [cc4__reduce_kernel_eq_skeleton]; unfold cc4__reduce_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  have hpay : k4_pay2 (View.readAt (Elt F) arg3.view (Rect.unit ![0, 0] S1x128.size inb_S1x128_S1x128_0_0).toLoadRect (harg3.unread xs))
      (View.readAt (Elt F) arg1.view (Rect.unit ![0, 0] S5000x128.size inb_S5000x128_S5000x128_0_0).toLoadRect (harg1.unread x0))
        = k4_pay2 xs x0 := by
    rw [View.readAt_eq_ld, View.readAt_eq_ld, hfs0, hf0, View.ld_unit_zero off2_zero, View.ld_unit_zero off2_zero]
  isplitl [H0]
  · iexists _; isplitr; · ipureintro; exact harg1.read_unread _
    iexact H0
  isplitl [H1]
  · iexists _; isplitr
    swap; · iexact H1
    ipureintro
    refine (View.read_writes_eq_canon _ _ _ (fun y => ⟨_, List.mem_cons_self, View.mem_set_unit_zero off2_zero inb_S1x128_S1x128_0_0 y⟩)).trans ?_
    rw [View.canon_cons_unit_zero off2_zero]
    sl_unfold_run_names
    rw [View.readCov_unit_zero _ off2_zero]
    exact hpay
  iexists _; isplitr
  swap; · iexact HS0
  ipureintro
  refine (View.read_writes_eq_canon _ _ _ (fun y => ⟨_, List.mem_cons_self, View.mem_set_unit_zero off2_zero inb_S1x128_S1x128_0_0 y⟩)).trans ?_
  rw [View.canon_cons_unit_zero off2_zero]
  sl_unfold_run_names
  exact hpay

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The tile window's current staging buffer holds its block at every point, for any proof data whose array is the
    entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## What the scratch holds after each point -/

/-- THE ACCUMULATION: the running row of column sums after point `n` — the first tile's column sums added to the
    zero row, then each later tile's added to what the point before left. -/
def acc4 (c : Dev nD) : (n : ℕ) → n < cfg4.N → Vec F S1x128 .f32
  | 0, h => k4_pay2 (k4_pay1 (F := F)) (iblk4 V c 0 ⟨0, h⟩)
  | n + 1, h => k4_pay2 (acc4 c n (Nat.lt_of_succ_lt h)) (iblk4 V c 0 ⟨n + 1, h⟩)

theorem acc4_zero (c : Dev nD) (h : 0 < cfg4.N) :
    acc4 V c 0 h = k4_pay2 (k4_pay1 (F := F)) (iblk4 V c 0 ⟨0, h⟩) := rfl

theorem acc4_succ (c : Dev nD) (n : ℕ) (h : n + 1 < cfg4.N) :
    acc4 V c (n + 1) h = k4_pay2 (acc4 V c n (Nat.lt_of_succ_lt h)) (iblk4 V c 0 ⟨n + 1, h⟩) := rfl

/-- At the first point. -/
theorem acc4_first (c : Dev nD) (t : Fin cfg4.N) (hz : t.val = 0) :
    acc4 V c t.val t.isLt = k4_pay2 (k4_pay1 (F := F)) (iblk4 V c 0 t) := by
  obtain ⟨n, hn⟩ := t
  cases n with
  | zero => rfl
  | succ n => exact absurd hz (Nat.succ_ne_zero n)

/-- At a later point, over what the point before left. -/
theorem acc4_pos (c : Dev nD) (t : Fin cfg4.N) (hz : t.val ≠ 0) :
    acc4 V c t.val t.isLt
      = k4_pay2 (acc4 V c (t.val - 1) (Nat.lt_of_le_of_lt (Nat.sub_le _ _) t.isLt)) (iblk4 V c 0 t) := by
  obtain ⟨n, hn⟩ := t
  cases n with
  | zero => exact absurd rfl hz
  | succ n => rfl

/-! ## The region invariant -/

/-- Before the first point the class's invariant (every scoped buffer that is no staging buffer at anything, the
    generator register at some state); afterwards the scratch at what the point before left, the other scoped
    buffers at anything and the generator register at some state. -/
def PhiS4 (c : Dev nD) : (n : ℕ) → n ≤ cfg4.N → sProp 𝕄
  | 0, _ => Pipeline.ΦA spec4 c
  | n + 1, hn => iprop(owns (c : Thread nD τ) (Memref.whole cc4_scratch0) fullShare (acc4 V c n hn)
      ∗ Pipeline.scopedRestBut spec4 c [cc4_scratch0] ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) (Memref.whole cc4_scratch0) fullShare (acc4 V c n hn)
      ∗ Pipeline.scopedRestBut spec4 c [cc4_scratch0] ∗ (∃ r, prngReg c r)) := rfl

theorem PhiS4_pos (c : Dev nD) (n : ℕ) (h : n ≤ cfg4.N) (hz : n ≠ 0) :
    PhiS4 V c n h = iprop(owns (c : Thread nD τ) (Memref.whole cc4_scratch0) fullShare (acc4 V c (n - 1) (by omega))
      ∗ Pipeline.scopedRestBut spec4 c [cc4_scratch0] ∗ (∃ r, prngReg c r)) := by
  cases n with
  | zero => exact absurd rfl hz
  | succ n => rfl

/-- The class's invariant with the scratch as a memref owned at some contents and the other scoped buffers unopened. -/
theorem PhiA4_eq (c : Dev nD) :
    (Pipeline.ΦA spec4 c : sProp 𝕄)
      = iprop(iprop(iprop(∃ d, owns (c : Thread nD τ) (Memref.whole cc4_scratch0) fullShare d)
          ∗ Pipeline.scopedRestBut spec4 c [cc4_scratch0]) ∗ (∃ r, prngReg c r)) := by
  unfold Pipeline.ΦA; rw [scopedRest4_split]; simp only [owns_whole]; try rfl

/-! ## The pipeline's proof data -/

/-- The proof data of pipeline 4 on core `c`: the arrays as the region finds them; after the body at point `t` the
    tile's buffer at its block and the output's at the running row there (what the last point copies out; at the idle
    points nothing consults it); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem owed4 (c : Dev nD) (t : Fin (cfg4.N + 1)) : (dat4 V c).owed t = 0 := rfl

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = acc4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 4800000 in
/-- The body at any point, by the point's case: the tile's memref holds its block; the invariant hands the body the
    scratch (at anything at the first point, else at what the point before left) and takes it back at this point's
    running row; off the last point the output's buffer goes back as found, at the last point it holds the running row. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (st4_0 t) fullShare ((dat4 V c).after 0 t) from by
    unfold Dat.leavesExact; rw [liveAt4_0 t], after4_0]
  by_cases h0 : t.val % 20 = 0
  · have h1 : ¬t.val % 20 = 19 := by omega
    have hz : t.val = 0 := by omega
    rw [Dat.leavesExact_idle (dat4 V c) 1 t (idleAt4_1 t (fun h => h1 ((hcond4_1 t).mp h))) (noFlush4_1 t (fun h => h1 ((hcond4_1 t).mp h)))]
    rw [acc4_first V c t hz]
    rw [PhiS4_castSucc V c t, PhiS4_zero V c _ _ hz, PhiA4_eq]
    iintro ⟨⟨⟨HS0, HR⟩, Hg⟩, Ho, ⟨%d0, H0⟩, ⟨%d1, H1⟩⟩
    iapply (run4_first c (grid4.coords t) Set.univ _ _ _ _ _ _ ((hcond4_0 t).mpr h0) (fun h => h1 ((hcond4_1 t).mp h)) (iblk4 V c 0 t) _ _)
    isplitl [H0]; · iexact H0
    isplitl [H1]; · iexact H1
    isplitl [HS0]; · iexact HS0
    iintro ⟨H0, H1, HS0⟩
    isplitl [HS0 HR Hg]
    · isplitl [HS0]; · iexact HS0
      isplitl [HR]; · iexact HR
      iexact Hg
    isplitl [Ho]; · iexact Ho
    isplitl [H0]; · iexact H0
    iexists _; iexact H1
  · have hz : t.val ≠ 0 := by omega
    by_cases h1 : t.val % 20 = 19
    · rw [show (dat4 V c).leavesExact 1 t = owns (c : Thread nD τ) (st4_1 t) fullShare ((dat4 V c).after 1 t) from by
        unfold Dat.leavesExact; rw [liveAt4_1 t ((hcond4_1 t).mpr h1)], after4_1]
      rw [acc4_pos V c t hz]
      rw [PhiS4_castSucc V c t, PhiS4_pos V c _ _ hz]
      iintro ⟨⟨HS0, HR, Hg⟩, Ho, ⟨%d0, H0⟩, ⟨%d1, H1⟩⟩
      iapply (run4_last c (grid4.coords t) Set.univ _ _ _ _ _ _ (fun h => h0 ((hcond4_0 t).mp h)) ((hcond4_1 t).mpr h1) (iblk4 V c 0 t) _ _)
      isplitl [H0]; · iexact H0
      isplitl [H1]; · iexists _; iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexact H1
    · rw [Dat.leavesExact_idle (dat4 V c) 1 t (idleAt4_1 t (fun h => h1 ((hcond4_1 t).mp h))) (noFlush4_1 t (fun h => h1 ((hcond4_1 t).mp h)))]
      rw [acc4_pos V c t hz]
      rw [PhiS4_castSucc V c t, PhiS4_pos V c _ _ hz]
      iintro ⟨⟨HS0, HR, Hg⟩, Ho, ⟨%d0, H0⟩, ⟨%d1, H1⟩⟩
      iapply (run4_mid c (grid4.coords t) Set.univ _ _ _ _ _ _ (fun h => h0 ((hcond4_0 t).mp h)) (fun h => h1 ((hcond4_1 t).mp h)) (iblk4 V c 0 t) _ _ _)
      isplitl [H0]; · iexact H0
      isplitl [H1]; · iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the scratch's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨HS0, HR, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end Region

end Cert.Kernel.Hand

end
-- ==== Proof.K.Fold.lean ====
/-
  The contents of every buffer at each boundary between two items of the program, as a fold from the launch memory: a
  stretch of host operations applies its operations in order; a kernel region leaves each of its arrays at what its
  write-backs fold to (the inputs as entered) and every other buffer as entered. The five regions run at the contents
  the fold reaches before them: region 0 after the first stretch, regions 1, 2, 3 each after its own stretch, region 4
  directly after region 3.
-/
import proofs.«141754_j13958643712644_1_alg».proof.Proof.K.Reg0
import proofs.«141754_j13958643712644_1_alg».proof.Proof.K.Reg1
import proofs.«141754_j13958643712644_1_alg».proof.Proof.K.Reg2
import proofs.«141754_j13958643712644_1_alg».proof.Proof.K.Reg3
import proofs.«141754_j13958643712644_1_alg».proof.Proof.K.Reg4

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- Every buffer at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- At region 4's exit: its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After the host stretch `hostOps5`. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b

end Cert.Kernel.Hand

end
-- ==== Proof.K.Run.lean ====
/- THE RUN of the whole program, from the launch to the return. The program is ten items in a row: a stretch of host
   operations, the embedding call, and three times a stretch of host operations (the two gathers and scatter-adds that
   make the incoming and outgoing messages) followed by an update call; then the column-sum call, entered directly from
   the third update call's exit, and a last host stretch. Each core's thread state between two items is: every unscoped
   buffer held whole at the contents the fold of the boundary contents reaches there, the generator register at some
   state, nothing owed. Each kernel region takes its arrays out of that state at entry and puts them back at what its
   write-backs leave at exit. The launch theorem for a program of several regions then gives: every weakly fair
   execution terminates, and in every final memory each unscoped buffer holds what the fold ends at. The arguments are
   written by no item, so the fold ends at their launch contents: the frame. Generic in the float family. -/
import proofs.«141754_j13958643712644_1_alg».proof.Proof.K.Fold
import proofs.«141754_j13958643712644_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

No host operation writes an argument, and a region reads an argument through an input window (whose array it leaves as
entered) or does not touch it: the fold at an argument's buffer walks back to the launch memory. -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps5 _ hostOps5_writes (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps5 _ hostOps5_writes (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := StableHlo.after_of_writes_sub hostOps5 _ hostOps5_writes (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := StableHlo.after_of_writes_sub hostOps5 _ hostOps5_writes (by decide)
    _ = W8 m ρ c (Proc.devRef .tc main_arg3) := W9_of_ne m ρ c main_arg3 (by decide)
    _ = W7 m ρ c (Proc.devRef .tc main_arg3) := (W8_arr m ρ c 3).trans (((dat3 (V7 m ρ) c).arrAt_in 3 rfl _).trans (A_eq3 (V7 m ρ) c 3))
    _ = W6 m ρ c (Proc.devRef .tc main_arg3) := StableHlo.after_of_writes_sub hostOps3 _ hostOps3_writes (by decide)
    _ = W5 m ρ c (Proc.devRef .tc main_arg3) := (W6_arr m ρ c 3).trans (((dat2 (V5 m ρ) c).arrAt_in 3 rfl _).trans (A_eq2 (V5 m ρ) c 3))
    _ = W4 m ρ c (Proc.devRef .tc main_arg3) := StableHlo.after_of_writes_sub hostOps2 _ hostOps2_writes (by decide)
    _ = W3 m ρ c (Proc.devRef .tc main_arg3) := (W4_arr m ρ c 3).trans (((dat1 (V3 m ρ) c).arrAt_in 3 rfl _).trans (A_eq1 (V3 m ρ) c 3))
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := StableHlo.after_of_writes_sub hostOps5 _ hostOps5_writes (by decide)
    _ = W8 m ρ c (Proc.devRef .tc main_arg4) := W9_of_ne m ρ c main_arg4 (by decide)
    _ = W7 m ρ c (Proc.devRef .tc main_arg4) := (W8_arr m ρ c 4).trans (((dat3 (V7 m ρ) c).arrAt_in 4 rfl _).trans (A_eq3 (V7 m ρ) c 4))
    _ = W6 m ρ c (Proc.devRef .tc main_arg4) := StableHlo.after_of_writes_sub hostOps3 _ hostOps3_writes (by decide)
    _ = W5 m ρ c (Proc.devRef .tc main_arg4) := (W6_arr m ρ c 4).trans (((dat2 (V5 m ρ) c).arrAt_in 4 rfl _).trans (A_eq2 (V5 m ρ) c 4))
    _ = W4 m ρ c (Proc.devRef .tc main_arg4) := StableHlo.after_of_writes_sub hostOps2 _ hostOps2_writes (by decide)
    _ = W3 m ρ c (Proc.devRef .tc main_arg4) := (W4_arr m ρ c 4).trans (((dat1 (V3 m ρ) c).arrAt_in 4 rfl _).trans (A_eq1 (V3 m ρ) c 4))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends with those
    references at the stretch applied to W, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at the contents the fold reaches before it, left
    with them at the contents after it. Its arrays are split out of the unscoped buffers at entry and put back at what the
    write-backs leave at exit; the generator register goes into the invariant and comes back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents the fold reaches before it, left
    with them at the contents after it. Its arrays are split out of the unscoped buffers at entry and put back at what the
    write-backs leave at exit; the generator register goes into the invariant and comes back; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents the fold reaches before it, left
    with them at the contents after it. Its arrays are split out of the unscoped buffers at entry and put back at what the
    write-backs leave at exit; the generator register goes into the invariant and comes back; nothing is owed; the kernel
    has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents the fold reaches before it, left
    with them at the contents after it. Its arrays are split out of the unscoped buffers at entry and put back at what the
    write-backs leave at exit; the generator register goes into the invariant and comes back; nothing is owed; the kernel
    has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (the column sums) over the thread state, entered directly from region 3's exit. Its invariant carries the
    accumulator besides the scoped rest and the generator register: it is made from them at the first point and gives
    them back at the last. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (hin4 (V8 m ρ) c)
    unfold Pipeline.ΦA
    iintro ⟨Hp, -, Hr⟩
    isplitl [Hr]; · iexact Hr
    iexact Hp
  hout c := by
    rw [Pipeline.ownSems0_none]
    refine (hout4 (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The ten items in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ),
    .host (hseg hostOps5 hostOps5_sub hostOps5_fresh (W9 m ρ)) ]

set_option backward.isDefEq.respectTransparency.types false in
/-- THE RUN: from any memory with zero counters, every weakly fair execution of the program terminates, nothing
    faulting, and in every final memory every unscoped buffer of every core holds what the fold of the boundary contents
    ends at. -/
theorem run_all : θ_run defs (onTc (τ := τ) (main (F := F))) ⟨m, fun _ => 0, ρ⟩
    (fun r => ∀ c : Dev nD, ∀ b ∈ Pipeline.ucRefs τ sig, r.2.mem ((c : Thread nD τ).1, b) = W10 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h => h)

/-- THE FRAME: every weakly fair execution terminates, nothing faulting, and every final memory has the five argument
    arrays as launched — the run, each argument read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c)⟩) (run_all m ρ)

end Cert.Kernel.Hand

end
-- ==== Proof.KI.Reg0.lean ====
/- REGION 0 of the program: the embedding call. The 100000x128 table of node features is cut into 20 tiles of
   5000 rows; at grid point t the call is handed tile t of the features (window 0), the whole 128x128 weight matrix
   (window 1, brought in once, at the first point, and kept in place afterwards) and writes tile t of the result
   (window 2): the tile times the transposed weights, the 128-long axis contracted. This module states, at ANY
   contents V of the core's buffers when the region is entered, what each window's block is at a point, what the
   body leaves in the output tile's buffer (its one whole-buffer store), the body's triple, and the pipeline's proof
   data with its body obligation. It is generic in the float family. -/
import proofs.«141754_j13958643712644_1_alg».proof.Proof.Gen.KernelIdeal.Launch
import proofs.«141754_j13958643712644_1_alg».proof.Proof.Gen.KernelIdeal.Skeleton
import proofs.«141754_j13958643712644_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's buffer holds tile t at point t (it is brought in at every point), for any proof data over
    the entry contents whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point: it is brought in at the first point only, the
    body leaves it in place, and its block index never moves, so what a fetch would bring is what is there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-! ## What the body leaves in the output tile's buffer -/

/-- The output tile's buffer after the body, from the two inputs' blocks: one store of the whole tile, the product of
    the feature tile with the transposed weights. -/
def out0_2 (x0 : Vec F S5000x128 .f32) (x1 : Vec F S128x128 .f32) : Vec F S5000x128 .f32 :=
  View.canon [⟨r0_0, k0_pay1 (View.ld x0 r0_0) (View.ld x1 r0_1)⟩]

/-- The one store is of the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The body on whole buffers, the two inputs' at contents x0 and x1 and the output's at anything, runs to the
    continuation holding the inputs' as they were and the output's at out0_2 of them. The body also reads the output
    buffer before storing into it; the value read is not used. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__embed_kernel i arg1 harg1 arg2 harg2 arg3 harg3) K := by
  simp only [cc0__embed_kernel_eq_skeleton]; unfold cc0__embed_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core c: the arrays as the region finds them; after the body at point t the two
    inputs' buffers at their blocks and the output's at out0_2 of them; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
/- Region 1 of the message-passing network (custom_call 1): one round of the update
     mu = relu(x_emb + msg_in · W2ᵀ + msg_out · W3ᵀ),
   computed tile by tile over 20 grid points. Windows 0, 1, 2 are the 5000-row tiles of x_emb, msg_in and msg_out
   (a new tile at every point); windows 3 and 4 are the two 128×128 weight matrices, whole (brought in once, at the
   first point, and found in place afterwards); window 5 is the 5000-row output tile, written back at every point.
   The body reads the five input tiles, reads the output tile (a value nothing uses) and overwrites the output tile
   whole with the payload of the five inputs. This module states, at an arbitrary content V of the core's buffers
   when the region is entered: each window's block at a point, what the body leaves in the output tile, the body's
   triple, the pipeline's proof data and its body obligation. Everything is generic in the float family. -/
import proofs.«141754_j13958643712644_1_alg».proof.Proof.Gen.KernelIdeal.Launch
import proofs.«141754_j13958643712644_1_alg».proof.Proof.Gen.KernelIdeal.Skeleton
import proofs.«141754_j13958643712644_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 5000 rows long is decided by a recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds the window's block at every point, whether the block was brought in at
    that point or earlier (then the block index has not moved since): for any proof data whose array is V's and
    whose body leaves the block in place. The five input windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read, and the output written, whole -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0

/-! ## What the body leaves in the output window's buffer -/

/-- The output tile after the body, from the five input blocks: one store, of the whole tile, of
    relu(x0 + x1 · x3ᵀ + x2 · x4ᵀ) as the payload spells it. -/
def out1_5 (x0 x1 x2 : Vec F S5000x128 .f32) (x3 x4 : Vec F S128x128 .f32) : Vec F S5000x128 .f32 :=
  View.canon [⟨r1_0, k1_pay1 (View.ld x0 r1_0) (View.ld x1 r1_0) (View.ld x2 r1_0) (View.ld x3 r1_1) (View.ld x4 r1_1)⟩]

/-- The one store covers the tile. -/
theorem cover1_5 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The body on whole buffers, the inputs' at contents x0 … x4 and the output's at anything, runs to the
    continuation with the inputs as they were and the output at out1_5 of them: five loads, a load of the output
    whose value is dropped, and the store. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S5000x128 .f32) (harg6 : arg6.IsWhole)
    (x0 x1 x2 : Vec F S5000x128 .f32) (x3 x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__update_kernel i arg1 harg1 arg2 harg2 arg3 harg3 arg4 harg4 arg5 harg5 arg6 harg6) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core c: the arrays as the region finds them (V); after the body at
    point t each input's buffer at its block and the output's at out1_5 of the five input blocks; the invariant
    that leaves the rest of the core untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Region 2 of the message-passing network (custom_call 2): one round of the update
     mu = relu(x_emb + msg_in · W2ᵀ + msg_out · W3ᵀ),
   computed tile by tile over 20 grid points. Windows 0, 1, 2 are the 5000-row tiles of x_emb, msg_in and msg_out
   (a new tile at every point); windows 3 and 4 are the two 128×128 weight matrices, whole (brought in once, at the
   first point, and found in place afterwards); window 5 is the 5000-row output tile, written back at every point.
   The body reads the five input tiles, reads the output tile (a value nothing uses) and overwrites the output tile
   whole with the payload of the five inputs. This module states, at an arbitrary content V of the core's buffers
   when the region is entered: each window's block at a point, what the body leaves in the output tile, the body's
   triple, the pipeline's proof data and its body obligation. Everything is generic in the float family. -/
import proofs.«141754_j13958643712644_1_alg».proof.Proof.Gen.KernelIdeal.Launch
import proofs.«141754_j13958643712644_1_alg».proof.Proof.Gen.KernelIdeal.Skeleton
import proofs.«141754_j13958643712644_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 5000 rows long is decided by a recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds the window's block at every point, whether the block was brought in at
    that point or earlier (then the block index has not moved since): for any proof data whose array is V's and
    whose body leaves the block in place. The five input windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read, and the output written, whole -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0

/-! ## What the body leaves in the output window's buffer -/

/-- The output tile after the body, from the five input blocks: one store, of the whole tile, of
    relu(x0 + x1 · x3ᵀ + x2 · x4ᵀ) as the payload spells it. -/
def out2_5 (x0 x1 x2 : Vec F S5000x128 .f32) (x3 x4 : Vec F S128x128 .f32) : Vec F S5000x128 .f32 :=
  View.canon [⟨r2_0, k2_pay1 (View.ld x0 r2_0) (View.ld x1 r2_0) (View.ld x2 r2_0) (View.ld x3 r2_1) (View.ld x4 r2_1)⟩]

/-- The one store covers the tile. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The body on whole buffers, the inputs' at contents x0 … x4 and the output's at anything, runs to the
    continuation with the inputs as they were and the output at out2_5 of them: five loads, a load of the output
    whose value is dropped, and the store. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S5000x128 .f32) (harg6 : arg6.IsWhole)
    (x0 x1 x2 : Vec F S5000x128 .f32) (x3 x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__update_kernel i arg1 harg1 arg2 harg2 arg3 harg3 arg4 harg4 arg5 harg5 arg6 harg6) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the region's pipeline on core c: the arrays as the region finds them (V); after the body at
    point t each input's buffer at its block and the output's at out2_5 of the five input blocks; the invariant
    that leaves the rest of the core untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/- Region 3 of the message-passing network (custom_call 3): one round of the update
     mu = relu(x_emb + msg_in · W2ᵀ + msg_out · W3ᵀ),
   computed tile by tile over 20 grid points. Windows 0, 1, 2 are the 5000-row tiles of x_emb, msg_in and msg_out
   (a new tile at every point); windows 3 and 4 are the two 128×128 weight matrices, whole (brought in once, at the
   first point, and found in place afterwards); window 5 is the 5000-row output tile, written back at every point.
   The body reads the five input tiles, reads the output tile (a value nothing uses) and overwrites the output tile
   whole with the payload of the five inputs. This module states, at an arbitrary content V of the core's buffers
   when the region is entered: each window's block at a point, what the body leaves in the output tile, the body's
   triple, the pipeline's proof data and its body obligation. Everything is generic in the float family. -/
import proofs.«141754_j13958643712644_1_alg».proof.Proof.Gen.KernelIdeal.Launch
import proofs.«141754_j13958643712644_1_alg».proof.Proof.Gen.KernelIdeal.Skeleton
import proofs.«141754_j13958643712644_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 5000 rows long is decided by a recursion once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds the window's block at every point, whether the block was brought in at
    that point or earlier (then the block index has not moved since): for any proof data whose array is V's and
    whose body leaves the block in place. The five input windows are uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read, and the output written, whole -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

/-! ## What the body leaves in the output window's buffer -/

/-- The output tile after the body, from the five input blocks: one store, of the whole tile, of
    relu(x0 + x1 · x3ᵀ + x2 · x4ᵀ) as the payload spells it. -/
def out3_5 (x0 x1 x2 : Vec F S5000x128 .f32) (x3 x4 : Vec F S128x128 .f32) : Vec F S5000x128 .f32 :=
  View.canon [⟨r3_0, k3_pay1 (View.ld x0 r3_0) (View.ld x1 r3_0) (View.ld x2 r3_0) (View.ld x3 r3_1) (View.ld x4 r3_1)⟩]

/-- The one store covers the tile. -/
theorem cover3_5 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The body on whole buffers, the inputs' at contents x0 … x4 and the output's at anything, runs to the
    continuation with the inputs as they were and the output at out3_5 of them: five loads, a load of the output
    whose value is dropped, and the store. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S5000x128 .f32) (harg6 : arg6.IsWhole)
    (x0 x1 x2 : Vec F S5000x128 .f32) (x3 x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__update_kernel i arg1 harg1 arg2 harg2 arg3 harg3 arg4 harg4 arg5 harg5 arg6 harg6) K := by
  simp only [cc3__update_kernel_eq_skeleton]; unfold cc3__update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the region's pipeline on core c: the arrays as the region finds them (V); after the body at
    point t each input's buffer at its block and the output's at out3_5 of the five input blocks; the invariant
    that leaves the rest of the core untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  REGION 4 of @main: the column-sum reduction (custom_call 4, pipeline 4), at the entry contents `V`.

  The mathematics. The region walks the 20 row tiles of the [100000, 128] array of node states, one tile
  [5000, 128] per grid point (window 0, fetched at every point), and keeps a running [1, 128] row of column sums
  in a scratch buffer of its own that lives across the grid points: at the first point the scratch is zeroed; at
  every point the tile's column sums are added to it; at the last point the scratch is copied into the [1, 128]
  output block (window 1), which is written back there and nowhere else — at every other point the output window
  is idle: its buffer is handed back as it was found.

  So what the scratch holds after point n is the recursion `acc4`: after point 0 the first tile's column sums
  added to the zero row, after point n + 1 the tile's column sums added to what point n left. The region invariant
  names the scratch's contents between points (before the first point the scratch is at anything), and the output
  block written back at the last point is `acc4` there.
-/
import proofs.«141754_j13958643712644_1_alg».proof.Proof.Gen.KernelIdeal.Launch
import proofs.«141754_j13958643712644_1_alg».proof.Proof.Gen.KernelIdeal.Skeleton
import proofs.«141754_j13958643712644_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- The first-point condition of the body, from the grid coordinates. -/
abbrev cond4_0 (i : grid4.Coords) : Prop :=
  (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 20 = 0 :=
  (by decide +kernel : ∀ t : Fin grid4.N, cond4_0 (grid4.coords t) ↔ t.val % 20 = 0)

/-- The last-point condition of the body. -/
abbrev cond4_1 (i : grid4.Coords) : Prop := k4_cond2 i = 1#1
/-- It holds at the last point only. -/
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle -/

/-- The tile window is never idle. -/
theorem liveAt4_0 : ∀ t : Fin cfg4.N, cfg4.idle 0 (grid4.coords t) = false := by decide +kernel
/-- Off the last point the output window is idle, -/
theorem idleAt4_1 : ∀ t : Fin cfg4.N, ¬cond4_1 (grid4.coords t) → cfg4.idle 1 (grid4.coords t) = true := by decide +kernel
/-- and not written back; -/
theorem noFlush4_1 : ∀ t : Fin cfg4.N, ¬cond4_1 (grid4.coords t) → (cfg4.win 1).flush t = false := by decide +kernel
/-- at the last point it is live. -/
theorem liveAt4_1 : ∀ t : Fin cfg4.N, cond4_1 (grid4.coords t) → cfg4.idle 1 (grid4.coords t) = false := by decide +kernel

/-! ## The body's accesses: each a whole buffer -/

theorem off2_zero : (![0, 0] : Fin 2 → Nat) = fun _ => 0 := by
  funext a; fin_cases a <;> rfl

/-! ## The body on whole memrefs, in each of its three cases -/

set_option maxHeartbeats 1000000 in
/-- FIRST POINT (the first conditional taken, the last not): the scratch, found at anything, is zeroed, the tile's
    column sums are added; the output's buffer is handed back untouched. -/
theorem run4_first (c : Dev nD) (i : grid4.Coords) (E : Set ℕ)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (hc0 : cond4_0 i) (hc1 : ¬cond4_1 i)
    (x0 : Vec F S5000x128 .f32) (xi1 : Vec F S1x128 .f32) (K : PUnit → sProp 𝕄) :
    iprop(owns (c : Thread nD τ) arg1 fullShare x0 ∗ owns (c : Thread nD τ) arg2 fullShare xi1
        ∗ (∃ d, owns (c : Thread nD τ) arg3 fullShare d)
        ∗ (iprop(owns (c : Thread nD τ) arg1 fullShare x0 ∗ owns (c : Thread nD τ) arg2 fullShare xi1
            ∗ owns (c : Thread nD τ) arg3 fullShare (k4_pay2 (k4_pay1 (F := F)) x0)) -∗ K ⟨⟩))
      ⊢ wp frame (wpE (defs₀ (F := F)) Variants.none c none) E (cc4__reduce_kernel i arg1 harg1 arg2 harg2 arg3 harg3) K := by
  simp only [cc4__reduce_kernel_eq_skeleton]; unfold cc4__reduce_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  refine (View.read_writes_eq_canon _ _ _ (fun y => ⟨_, List.mem_cons_self, View.mem_set_unit_zero off2_zero inb_S1x128_S1x128_0_0 y⟩)).trans ?_
  rw [View.canon_cons_unit_zero off2_zero]
  sl_unfold_run_names
  rw [View.readCov_unit_zero _ off2_zero, View.readAt_eq_ld, hf0, View.ld_unit_zero off2_zero]

set_option maxHeartbeats 1000000 in
/-- A MIDDLE POINT (neither conditional taken): the tile's column sums are added to what the point before left in
    the scratch; the output's buffer is handed back untouched. -/
theorem run4_mid (c : Dev nD) (i : grid4.Coords) (E : Set ℕ)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (hc0 : ¬cond4_0 i) (hc1 : ¬cond4_1 i)
    (x0 : Vec F S5000x128 .f32) (xi1 : Vec F S1x128 .f32) (xs : Vec F S1x128 .f32) (K : PUnit → sProp 𝕄) :
    iprop(owns (c : Thread nD τ) arg1 fullShare x0 ∗ owns (c : Thread nD τ) arg2 fullShare xi1
        ∗ owns (c : Thread nD τ) arg3 fullShare xs
        ∗ (iprop(owns (c : Thread nD τ) arg1 fullShare x0 ∗ owns (c : Thread nD τ) arg2 fullShare xi1
            ∗ owns (c : Thread nD τ) arg3 fullShare (k4_pay2 xs x0)) -∗ K ⟨⟩))
      ⊢ wp frame (wpE (defs₀ (F := F)) Variants.none c none) E (cc4__reduce_kernel i arg1 harg1 arg2 harg2 arg3 harg3) K := by
  simp only [cc4__reduce_kernel_eq_skeleton]; unfold cc4__reduce_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  refine (View.read_writes_eq_canon _ _ _ (fun y => ⟨_, List.mem_cons_self, View.mem_set_unit_zero off2_zero inb_S1x128_S1x128_0_0 y⟩)).trans ?_
  rw [View.canon_cons_unit_zero off2_zero]
  sl_unfold_run_names
  rw [View.readAt_eq_ld, View.readAt_eq_ld, hfs0, hf0, View.ld_unit_zero off2_zero, View.ld_unit_zero off2_zero]

set_option maxHeartbeats 1000000 in
/-- THE LAST POINT (the first conditional not taken, the last taken): the tile's column sums are added to what the
    point before left in the scratch, and the scratch is copied into the output's buffer, found at anything. -/
theorem run4_last (c : Dev nD) (i : grid4.Coords) (E : Set ℕ)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (hc0 : ¬cond4_0 i) (hc1 : cond4_1 i)
    (x0 : Vec F S5000x128 .f32) (xs : Vec F S1x128 .f32) (K : PUnit → sProp 𝕄) :
    iprop(owns (c : Thread nD τ) arg1 fullShare x0 ∗ (∃ d, owns (c : Thread nD τ) arg2 fullShare d)
        ∗ owns (c : Thread nD τ) arg3 fullShare xs
        ∗ (iprop(owns (c : Thread nD τ) arg1 fullShare x0 ∗ owns (c : Thread nD τ) arg2 fullShare (k4_pay2 xs x0)
            ∗ owns (c : Thread nD τ) arg3 fullShare (k4_pay2 xs x0)) -∗ K ⟨⟩))
      ⊢ wp frame (wpE (defs₀ (F := F)) Variants.none c none) E (cc4__reduce_kernel i arg1 harg1 arg2 harg2 arg3 harg3) K := by
  simp only [cc4__reduce_kernel_eq_skeleton]; unfold cc4__reduce_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  have hpay : k4_pay2 (View.readAt (Elt F) arg3.view (Rect.unit ![0, 0] S1x128.size inb_S1x128_S1x128_0_0).toLoadRect (harg3.unread xs))
      (View.readAt (Elt F) arg1.view (Rect.unit ![0, 0] S5000x128.size inb_S5000x128_S5000x128_0_0).toLoadRect (harg1.unread x0))
        = k4_pay2 xs x0 := by
    rw [View.readAt_eq_ld, View.readAt_eq_ld, hfs0, hf0, View.ld_unit_zero off2_zero, View.ld_unit_zero off2_zero]
  isplitl [H0]
  · iexists _; isplitr; · ipureintro; exact harg1.read_unread _
    iexact H0
  isplitl [H1]
  · iexists _; isplitr
    swap; · iexact H1
    ipureintro
    refine (View.read_writes_eq_canon _ _ _ (fun y => ⟨_, List.mem_cons_self, View.mem_set_unit_zero off2_zero inb_S1x128_S1x128_0_0 y⟩)).trans ?_
    rw [View.canon_cons_unit_zero off2_zero]
    sl_unfold_run_names
    rw [View.readCov_unit_zero _ off2_zero]
    exact hpay
  iexists _; isplitr
  swap; · iexact HS0
  ipureintro
  refine (View.read_writes_eq_canon _ _ _ (fun y => ⟨_, List.mem_cons_self, View.mem_set_unit_zero off2_zero inb_S1x128_S1x128_0_0 y⟩)).trans ?_
  rw [View.canon_cons_unit_zero off2_zero]
  sl_unfold_run_names
  exact hpay

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The tile window's current staging buffer holds its block at every point, for any proof data whose array is the
    entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## What the scratch holds after each point -/

/-- THE ACCUMULATION: the running row of column sums after point `n` — the first tile's column sums added to the
    zero row, then each later tile's added to what the point before left. -/
def acc4 (c : Dev nD) : (n : ℕ) → n < cfg4.N → Vec F S1x128 .f32
  | 0, h => k4_pay2 (k4_pay1 (F := F)) (iblk4 V c 0 ⟨0, h⟩)
  | n + 1, h => k4_pay2 (acc4 c n (Nat.lt_of_succ_lt h)) (iblk4 V c 0 ⟨n + 1, h⟩)

theorem acc4_zero (c : Dev nD) (h : 0 < cfg4.N) :
    acc4 V c 0 h = k4_pay2 (k4_pay1 (F := F)) (iblk4 V c 0 ⟨0, h⟩) := rfl

theorem acc4_succ (c : Dev nD) (n : ℕ) (h : n + 1 < cfg4.N) :
    acc4 V c (n + 1) h = k4_pay2 (acc4 V c n (Nat.lt_of_succ_lt h)) (iblk4 V c 0 ⟨n + 1, h⟩) := rfl

/-- At the first point. -/
theorem acc4_first (c : Dev nD) (t : Fin cfg4.N) (hz : t.val = 0) :
    acc4 V c t.val t.isLt = k4_pay2 (k4_pay1 (F := F)) (iblk4 V c 0 t) := by
  obtain ⟨n, hn⟩ := t
  cases n with
  | zero => rfl
  | succ n => exact absurd hz (Nat.succ_ne_zero n)

/-- At a later point, over what the point before left. -/
theorem acc4_pos (c : Dev nD) (t : Fin cfg4.N) (hz : t.val ≠ 0) :
    acc4 V c t.val t.isLt
      = k4_pay2 (acc4 V c (t.val - 1) (Nat.lt_of_le_of_lt (Nat.sub_le _ _) t.isLt)) (iblk4 V c 0 t) := by
  obtain ⟨n, hn⟩ := t
  cases n with
  | zero => exact absurd rfl hz
  | succ n => rfl

/-! ## The region invariant -/

/-- Before the first point the class's invariant (every scoped buffer that is no staging buffer at anything, the
    generator register at some state); afterwards the scratch at what the point before left, the other scoped
    buffers at anything and the generator register at some state. -/
def PhiS4 (c : Dev nD) : (n : ℕ) → n ≤ cfg4.N → sProp 𝕄
  | 0, _ => Pipeline.ΦA spec4 c
  | n + 1, hn => iprop(owns (c : Thread nD τ) (Memref.whole cc4_scratch0) fullShare (acc4 V c n hn)
      ∗ Pipeline.scopedRestBut spec4 c [cc4_scratch0] ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) (Memref.whole cc4_scratch0) fullShare (acc4 V c n hn)
      ∗ Pipeline.scopedRestBut spec4 c [cc4_scratch0] ∗ (∃ r, prngReg c r)) := rfl

theorem PhiS4_pos (c : Dev nD) (n : ℕ) (h : n ≤ cfg4.N) (hz : n ≠ 0) :
    PhiS4 V c n h = iprop(owns (c : Thread nD τ) (Memref.whole cc4_scratch0) fullShare (acc4 V c (n - 1) (by omega))
      ∗ Pipeline.scopedRestBut spec4 c [cc4_scratch0] ∗ (∃ r, prngReg c r)) := by
  cases n with
  | zero => exact absurd rfl hz
  | succ n => rfl

/-- The class's invariant with the scratch as a memref owned at some contents and the other scoped buffers unopened. -/
theorem PhiA4_eq (c : Dev nD) :
    (Pipeline.ΦA spec4 c : sProp 𝕄)
      = iprop(iprop(iprop(∃ d, owns (c : Thread nD τ) (Memref.whole cc4_scratch0) fullShare d)
          ∗ Pipeline.scopedRestBut spec4 c [cc4_scratch0]) ∗ (∃ r, prngReg c r)) := by
  unfold Pipeline.ΦA; rw [scopedRest4_split]; simp only [owns_whole]; try rfl

/-! ## The pipeline's proof data -/

/-- The proof data of pipeline 4 on core `c`: the arrays as the region finds them; after the body at point `t` the
    tile's buffer at its block and the output's at the running row there (what the last point copies out; at the idle
    points nothing consults it); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem owed4 (c : Dev nD) (t : Fin (cfg4.N + 1)) : (dat4 V c).owed t = 0 := rfl

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = acc4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 4800000 in
/-- The body at any point, by the point's case: the tile's memref holds its block; the invariant hands the body the
    scratch (at anything at the first point, else at what the point before left) and takes it back at this point's
    running row; off the last point the output's buffer goes back as found, at the last point it holds the running row. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (st4_0 t) fullShare ((dat4 V c).after 0 t) from by
    unfold Dat.leavesExact; rw [liveAt4_0 t], after4_0]
  by_cases h0 : t.val % 20 = 0
  · have h1 : ¬t.val % 20 = 19 := by omega
    have hz : t.val = 0 := by omega
    rw [Dat.leavesExact_idle (dat4 V c) 1 t (idleAt4_1 t (fun h => h1 ((hcond4_1 t).mp h))) (noFlush4_1 t (fun h => h1 ((hcond4_1 t).mp h)))]
    rw [acc4_first V c t hz]
    rw [PhiS4_castSucc V c t, PhiS4_zero V c _ _ hz, PhiA4_eq]
    iintro ⟨⟨⟨HS0, HR⟩, Hg⟩, Ho, ⟨%d0, H0⟩, ⟨%d1, H1⟩⟩
    iapply (run4_first c (grid4.coords t) Set.univ _ _ _ _ _ _ ((hcond4_0 t).mpr h0) (fun h => h1 ((hcond4_1 t).mp h)) (iblk4 V c 0 t) _ _)
    isplitl [H0]; · iexact H0
    isplitl [H1]; · iexact H1
    isplitl [HS0]; · iexact HS0
    iintro ⟨H0, H1, HS0⟩
    isplitl [HS0 HR Hg]
    · isplitl [HS0]; · iexact HS0
      isplitl [HR]; · iexact HR
      iexact Hg
    isplitl [Ho]; · iexact Ho
    isplitl [H0]; · iexact H0
    iexists _; iexact H1
  · have hz : t.val ≠ 0 := by omega
    by_cases h1 : t.val % 20 = 19
    · rw [show (dat4 V c).leavesExact 1 t = owns (c : Thread nD τ) (st4_1 t) fullShare ((dat4 V c).after 1 t) from by
        unfold Dat.leavesExact; rw [liveAt4_1 t ((hcond4_1 t).mpr h1)], after4_1]
      rw [acc4_pos V c t hz]
      rw [PhiS4_castSucc V c t, PhiS4_pos V c _ _ hz]
      iintro ⟨⟨HS0, HR, Hg⟩, Ho, ⟨%d0, H0⟩, ⟨%d1, H1⟩⟩
      iapply (run4_last c (grid4.coords t) Set.univ _ _ _ _ _ _ (fun h => h0 ((hcond4_0 t).mp h)) ((hcond4_1 t).mpr h1) (iblk4 V c 0 t) _ _)
      isplitl [H0]; · iexact H0
      isplitl [H1]; · iexists _; iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexact H1
    · rw [Dat.leavesExact_idle (dat4 V c) 1 t (idleAt4_1 t (fun h => h1 ((hcond4_1 t).mp h))) (noFlush4_1 t (fun h => h1 ((hcond4_1 t).mp h)))]
      rw [acc4_pos V c t hz]
      rw [PhiS4_castSucc V c t, PhiS4_pos V c _ _ hz]
      iintro ⟨⟨HS0, HR, Hg⟩, Ho, ⟨%d0, H0⟩, ⟨%d1, H1⟩⟩
      iapply (run4_mid c (grid4.coords t) Set.univ _ _ _ _ _ _ (fun h => h0 ((hcond4_0 t).mp h)) (fun h => h1 ((hcond4_1 t).mp h)) (iblk4 V c 0 t) _ _ _)
      isplitl [H0]; · iexact H0
      isplitl [H1]; · iexact H1
      isplitl [HS0]; · iexact HS0
      iintro ⟨H0, H1, HS0⟩
      isplitl [HS0 HR Hg]
      · isplitl [HS0]; · iexact HS0
        isplitl [HR]; · iexact HR
        iexact Hg
      isplitl [Ho]; · iexact Ho
      isplitl [H0]; · iexact H0
      iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the scratch's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨HS0, HR, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end Region

end Cert.KernelIdeal.Hand

end
-- ==== Proof.KI.Fold.lean ====
/-
  The contents of every buffer at each boundary between two items of the program, as a fold from the launch memory: a
  stretch of host operations applies its operations in order; a kernel region leaves each of its arrays at what its
  write-backs fold to (the inputs as entered) and every other buffer as entered. The five regions run at the contents
  the fold reaches before them: region 0 after the first stretch, regions 1, 2, 3 each after its own stretch, region 4
  directly after region 3.
-/
import proofs.«141754_j13958643712644_1_alg».proof.Proof.KI.Reg0
import proofs.«141754_j13958643712644_1_alg».proof.Proof.KI.Reg1
import proofs.«141754_j13958643712644_1_alg».proof.Proof.KI.Reg2
import proofs.«141754_j13958643712644_1_alg».proof.Proof.KI.Reg3
import proofs.«141754_j13958643712644_1_alg».proof.Proof.KI.Reg4

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- Every buffer at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- At region 4's exit: its arrays at what the pipeline leaves, every other buffer as entered. -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev V9 : (c : Dev nD) → (b : Ref sig .tc) → Buf (Elt F) ((c : Thread nD τ).loc b) := fun c b => W9 m ρ c b
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After the host stretch `hostOps5`. -/
abbrev W10 : Dev nD → Valuation τ sig (Elt F) := fun c => StableHlo.after hostOps5 (W9 m ρ c)
abbrev V10 : (c : Dev nD) → (b : Ref sig .tc) → Buf (Elt F) ((c : Thread nD τ).loc b) := fun c b => W10 m ρ c b

end Cert.KernelIdeal.Hand

end
-- ==== Proof.KI.Run.lean ====
/- THE RUN of the whole program, from the launch to the return. The program is ten items in a row: a stretch of host
   operations, the embedding call, and three times a stretch of host operations (the two gathers and scatter-adds that
   make the incoming and outgoing messages) followed by an update call; then the column-sum call, entered directly from
   the third update call's exit, and a last host stretch. Each core's thread state between two items is: every unscoped
   buffer held whole at the contents the fold of the boundary contents reaches there, the generator register at some
   state, nothing owed. Each kernel region takes its arrays out of that state at entry and puts them back at what its
   write-backs leave at exit. The launch theorem for a program of several regions then gives: every weakly fair
   execution terminates, and in every final memory each unscoped buffer holds what the fold ends at. The arguments are
   written by no item, so the fold ends at their launch contents: the frame. Generic in the float family. -/
import proofs.«141754_j13958643712644_1_alg».proof.Proof.KI.Fold
import proofs.«141754_j13958643712644_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

No host operation writes an argument, and a region reads an argument through an input window (whose array it leaves as
entered) or does not touch it: the fold at an argument's buffer walks back to the launch memory. -/

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps5 _ hostOps5_writes (by decide)
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps5 _ hostOps5_writes (by decide)
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := StableHlo.after_of_writes_sub hostOps5 _ hostOps5_writes (by decide)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := StableHlo.after_of_writes_sub hostOps5 _ hostOps5_writes (by decide)
    _ = W8 m ρ c (Proc.devRef .tc main_arg3) := W9_of_ne m ρ c main_arg3 (by decide)
    _ = W7 m ρ c (Proc.devRef .tc main_arg3) := (W8_arr m ρ c 3).trans (((dat3 (V7 m ρ) c).arrAt_in 3 rfl _).trans (A_eq3 (V7 m ρ) c 3))
    _ = W6 m ρ c (Proc.devRef .tc main_arg3) := StableHlo.after_of_writes_sub hostOps3 _ hostOps3_writes (by decide)
    _ = W5 m ρ c (Proc.devRef .tc main_arg3) := (W6_arr m ρ c 3).trans (((dat2 (V5 m ρ) c).arrAt_in 3 rfl _).trans (A_eq2 (V5 m ρ) c 3))
    _ = W4 m ρ c (Proc.devRef .tc main_arg3) := StableHlo.after_of_writes_sub hostOps2 _ hostOps2_writes (by decide)
    _ = W3 m ρ c (Proc.devRef .tc main_arg3) := (W4_arr m ρ c 3).trans (((dat1 (V3 m ρ) c).arrAt_in 3 rfl _).trans (A_eq1 (V3 m ρ) c 3))
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := StableHlo.after_of_writes_sub hostOps5 _ hostOps5_writes (by decide)
    _ = W8 m ρ c (Proc.devRef .tc main_arg4) := W9_of_ne m ρ c main_arg4 (by decide)
    _ = W7 m ρ c (Proc.devRef .tc main_arg4) := (W8_arr m ρ c 4).trans (((dat3 (V7 m ρ) c).arrAt_in 4 rfl _).trans (A_eq3 (V7 m ρ) c 4))
    _ = W6 m ρ c (Proc.devRef .tc main_arg4) := StableHlo.after_of_writes_sub hostOps3 _ hostOps3_writes (by decide)
    _ = W5 m ρ c (Proc.devRef .tc main_arg4) := (W6_arr m ρ c 4).trans (((dat2 (V5 m ρ) c).arrAt_in 4 rfl _).trans (A_eq2 (V5 m ρ) c 4))
    _ = W4 m ρ c (Proc.devRef .tc main_arg4) := StableHlo.after_of_writes_sub hostOps2 _ hostOps2_writes (by decide)
    _ = W3 m ρ c (Proc.devRef .tc main_arg4) := (W4_arr m ρ c 4).trans (((dat1 (V3 m ρ) c).arrAt_in 4 rfl _).trans (A_eq1 (V3 m ρ) c 4))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, at
    nothing. -/
abbrev R (c : Dev nD) : sProp 𝕄 := iprop((∃ r, prngReg c r) ∗ ∃ W, owes (c : Thread nD τ) (0 : CellTallies nD τ sig Unit) W)
/-- A host stretch as a segment over the unscoped references from the contents W, R riding along: it ends with those
    references at the stretch applied to W, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at the contents the fold reaches before it, left
    with them at the contents after it. Its arrays are split out of the unscoped buffers at entry and put back at what the
    write-backs leave at exit; the generator register goes into the invariant and comes back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents the fold reaches before it, left
    with them at the contents after it. Its arrays are split out of the unscoped buffers at entry and put back at what the
    write-backs leave at exit; the generator register goes into the invariant and comes back; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents the fold reaches before it, left
    with them at the contents after it. Its arrays are split out of the unscoped buffers at entry and put back at what the
    write-backs leave at exit; the generator register goes into the invariant and comes back; nothing is owed; the kernel
    has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the contents the fold reaches before it, left
    with them at the contents after it. Its arrays are split out of the unscoped buffers at entry and put back at what the
    write-backs leave at exit; the generator register goes into the invariant and comes back; nothing is owed; the kernel
    has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (the column sums) over the thread state, entered directly from region 3's exit. Its invariant carries the
    accumulator besides the scoped rest and the generator register: it is made from them at the first point and gives
    them back at the last. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec4 c from ?_).trans (hin4 (V8 m ρ) c)
    unfold Pipeline.ΦA
    iintro ⟨Hp, -, Hr⟩
    isplitl [Hr]; · iexact Hr
    iexact Hp
  hout c := by
    rw [Pipeline.ownSems0_none]
    refine (hout4 (V8 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The ten items in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ),
    .host (hseg hostOps5 hostOps5_sub hostOps5_fresh (W9 m ρ)) ]

set_option backward.isDefEq.respectTransparency.types false in
/-- THE RUN: from any memory with zero counters, every weakly fair execution of the program terminates, nothing
    faulting, and in every final memory every unscoped buffer of every core holds what the fold of the boundary contents
    ends at. -/
theorem run_all : θ_run defs (onTc (τ := τ) (main (F := F))) ⟨m, fun _ => 0, ρ⟩
    (fun r => ∀ c : Dev nD, ∀ b ∈ Pipeline.ucRefs τ sig, r.2.mem ((c : Thread nD τ).1, b) = W10 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W10 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h => h)

/-- THE FRAME: every weakly fair execution terminates, nothing faulting, and every final memory has the five argument
    arrays as launched — the run, each argument read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c)⟩) (run_all m ρ)

end Cert.KernelIdeal.Hand

end
-- ==== Proof.KI.Msg.lean ====
/-
  The message aggregation between two update rounds, as one function of the node features and the edge list: the
  source (row 0) and target (row 1) node of every edge are read off the [2, E] edge array; `msg mu gi si` gathers the
  rows of `mu` at the indices `gi` (a negative index is first shifted up by the row count, as jnp normalises it) and
  adds each gathered row into the row `si` names of an array of zeros. The incoming messages are `msg mu src dst`,
  the outgoing ones `msg mu dst src`. The operations are the program's own host operations, kept unopened.
-/
import proofs.«141754_j13958643712644_1_alg».proof.Proof.Gen.KernelIdeal

noncomputable section

namespace Cert.KernelIdeal.Hand

open Cert.KernelIdeal Cert.KernelIdeal.Gen Idealize.ShloMosaic

variable {F : FTy → Type} [FloatOps F]

/-- Row 0 of the edge array: every edge's source node. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge array: every edge's target node. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The array of zeros the aggregation adds into, and the first round's node features. -/
def zerosN : (⟨S100000x128, .f32⟩ : BufTy).Contents (Elt F) :=
  broadcastInDim S100000x128 ![] bcast_S_S100000x128 (constant S_ .f32 0x00000000#32)

/-- Gather the rows of `mu` at `gi` (negative indices shifted by 100000), add each into row `si` of zeros. -/
def msg (mu : (⟨S100000x128, .f32⟩ : BufTy).Contents (Elt F)) (gi si : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 si)
    (Host.gather gather_S100000x128_S1600000x1_S1600000x128_1_0_n_n_0_1_1128 mu
      (broadcastInDim S1600000x1 ![0] bcast_S1600000_S1600000x1_0
        (select (cmpi .slt gi (broadcastInDim S1600000 ![] bcast_S_S1600000 (constantI S_ 32 0#32)))
          (addi gi (broadcastInDim S1600000 ![] bcast_S_S1600000 (constantI S_ 32 100000#32))) gi)))

/-- The messages arriving at each node: gathered at the sources, summed at the targets. -/
def msgIn (mu : (⟨S100000x128, .f32⟩ : BufTy).Contents (Elt F)) (e : (⟨S2x1600000, .i32⟩ : BufTy).Contents (Elt F)) :
    (⟨S100000x128, .f32⟩ : BufTy).Contents (Elt F) := msg mu (srcOf e) (dstOf e)

/-- The messages leaving each node: gathered at the targets, summed at the sources. -/
def msgOut (mu : (⟨S100000x128, .f32⟩ : BufTy).Contents (Elt F)) (e : (⟨S2x1600000, .i32⟩ : BufTy).Contents (Elt F)) :
    (⟨S100000x128, .f32⟩ : BufTy).Contents (Elt F) := msg mu (dstOf e) (srcOf e)

end Cert.KernelIdeal.Hand

end
-- ==== Proof.Spec.lean ====
/-
  The three dense stages of the message-passing network, stated once over the extended reals and over literal shapes,
  so that both programs' results can be compared stage by stage.

  * `mmT x w`   : the product of `x` (100000 × 128) with the TRANSPOSE of `w` (128 × 128): entry (p, q) is
                   the sum over k of x[p, k] · w[q, k].
  * `upd`       : one round of the update, max(xe + mi·w2ᵀ + mo·w3ᵀ, 0), entry by entry.
  * `colsum`    : the sum of a 100000 × 128 array over its rows, column by column.
-/
import Idealize.ShloMosaic.PureOps.Ideal
import Idealize.ShloMosaic.Lib.ValueIdx

noncomputable section

open scoped BigOperators

namespace Cert.Spec

open Idealize.ShloMosaic Idealize.ShloMosaic.ValueIdx

/-- The node-feature shape, 100000 × 128. -/
abbrev SN : Shape := ⟨2, ![100000, 128]⟩
/-- A weight matrix's shape, 128 × 128. -/
abbrev SW : Shape := ⟨2, ![128, 128]⟩
/-- A feature vector's shape, 128. -/
abbrev SV : Shape := ⟨1, ![128]⟩
/-- One node tile, 5000 × 128. -/
abbrev SB : Shape := ⟨2, ![5000, 128]⟩

/-- Entry (p, q) of x · wᵀ: the sum over k of x[p, k] · w[q, k]. -/
def mmTc (x : SN.Idx → EReal) (w : SW.Idx → EReal) (p : Fin 100000) (q : Fin 128) : EReal :=
  ∑ k : Fin 128, x (ix2 p k) * w (ix2 q k)

/-- x · wᵀ as a whole array. -/
def mmT (x : SN.Idx → EReal) (w : SW.Idx → EReal) : SN.Idx → EReal :=
  fun i => mmTc x w (i 0) (i 1)

theorem mmT_ix2 (x : SN.Idx → EReal) (w : SW.Idx → EReal) (p : Fin 100000) (q : Fin 128) :
    mmT x w (ix2 p q) = mmTc x w p q := rfl

/-- Entry (p, q) of one update round: max(xe + mi·w2ᵀ + mo·w3ᵀ, 0). -/
def updc (xe mi mo : SN.Idx → EReal) (w2 w3 : SW.Idx → EReal) (p : Fin 100000) (q : Fin 128) : EReal :=
  max (xe (ix2 p q) + mmTc mi w2 p q + mmTc mo w3 p q) 0

/-- One update round as a whole array. -/
def upd (xe mi mo : SN.Idx → EReal) (w2 w3 : SW.Idx → EReal) : SN.Idx → EReal :=
  fun i => updc xe mi mo w2 w3 (i 0) (i 1)

theorem upd_ix2 (xe mi mo : SN.Idx → EReal) (w2 w3 : SW.Idx → EReal) (p : Fin 100000) (q : Fin 128) :
    upd xe mi mo w2 w3 (ix2 p q) = updc xe mi mo w2 w3 p q := rfl

/-- Column q of the row sum: the sum over all 100000 rows r of mu[r, q]. -/
def colsumc (mu : SN.Idx → EReal) (q : Fin 128) : EReal := ∑ r : Fin 100000, mu (ix2 r q)

/-- The row sum as a vector of 128 columns. -/
def colsum (mu : SN.Idx → EReal) : SV.Idx → EReal := fun j => colsumc mu (j 0)

theorem colsum_ix1 (mu : SN.Idx → EReal) (q : Fin 128) : colsum mu (ix1 q) = colsumc mu q := rfl

end Cert.Spec

end
-- ==== Proof.KI.Val0.lean ====
/- The value of REGION 0, the embedding call, over the extended reals. The 100000 × 128 table x of node features is
   cut into 20 tiles of 5000 rows; at grid point t the call multiplies tile t by the transpose of the 128 × 128
   weight matrix w, the 128-long axis contracted, and writes the product back as tile t of the result. Narrowing the
   operands to the shorter float format is the identity here and the product is accumulated into the zero tile, so entry
   (p, q) of tile t is the plain sum over k of x[5000·t + p, k] · w[q, k]. The twenty tiles are disjoint and cover every
   row, so the array the region leaves is x · wᵀ, with x and w as the region finds them. -/
import proofs.«141754_j13958643712644_1_alg».proof.Proof.KI.Reg0
import proofs.«141754_j13958643712644_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx Idealize.ShloMosaic.TcCoe
open Idealize.ShloMosaic.Pipeline (Dat Cfg Window)

/-! ## The product's operand indices, axis by axis -/

theorem embed_lhs_0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl

theorem embed_lhs_1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q

theorem embed_rhs_0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl

theorem embed_rhs_1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-! ## One tile -/

/-- Entry (p, q) of the tile's product: the sum over k of x[p, k] · w[q, k]. -/
theorem embed_pay_apply (x : Vec Ideal S5000x128 .f32) (w : Vec Ideal S128x128 .f32) (p : Fin 5000) (q : Fin 128) :
    k0_pay1 (F := Ideal) x w (ix2 p q) = ∑ k : Fin 128, x (ix2 p k) * w (ix2 q k) := by
  unfold k0_pay1
  refine (Ideal.matmul_constant_zero_apply dot_S5000x128_S128x128_S5000x128_1_1_0_0_n_n none _ _ (ix2 p q)).trans ?_
  rw [← Equiv.sum_comp (ValueIdx.contrEquiv1 dot_S5000x128_S128x128_S5000x128_1_1_0_0_n_n 128 rfl rfl).symm]
  refine Finset.sum_congr rfl fun k _ => ?_
  have hk := ValueIdx.contrEquiv1_symm_val dot_S5000x128_S128x128_S5000x128_1_1_0_0_n_n 128 rfl rfl k
  have el : dot_S5000x128_S128x128_S5000x128_1_1_0_0_n_n.lhsIdx (ix2 p q) ((ValueIdx.contrEquiv1 dot_S5000x128_S128x128_S5000x128_1_1_0_0_n_n 128 rfl rfl).symm k) = ix2 p k := funext fun a => Fin.ext (by
    match a with
    | ⟨0, _⟩ => exact embed_lhs_0 _ _
    | ⟨1, _⟩ => exact (embed_lhs_1 _ _).trans hk)
  have er : dot_S5000x128_S128x128_S5000x128_1_1_0_0_n_n.rhsIdx (ix2 p q) ((ValueIdx.contrEquiv1 dot_S5000x128_S128x128_S5000x128_1_1_0_0_n_n 128 rfl rfl).symm k) = ix2 q k := funext fun a => Fin.ext (by
    match a with
    | ⟨0, _⟩ => exact embed_rhs_0 _ _
    | ⟨1, _⟩ => exact (embed_rhs_1 _ _).trans hk)
  rw [truncf_apply, truncf_apply, el, er]

/-- The tile's product as a function of the index. -/
theorem embed_pay_eq (x : Vec Ideal S5000x128 .f32) (w : Vec Ideal S128x128 .f32) :
    k0_pay1 (F := Ideal) x w = fun j : S5000x128.Idx => ∑ k : Fin 128, x (ix2 (j 0) k) * w (ix2 (j 1) k) := by
  funext j
  obtain ⟨p, q, rfl⟩ : ∃ (p : Fin 5000) (q : Fin 128), j = ix2 p q := ⟨j 0, j 1, eq_ix2 j⟩
  exact embed_pay_apply x w p q

/-! ## From the tiles to the array -/

variable (V : (c : Dev nD) → (b : Ref sig .tc) → Buf (Elt Ideal) ((c : Thread nD τ).loc b))

theorem origin2 : (![0, 0] : Fin 2 → Nat) = fun _ => 0 := funext fun a => by fin_cases a <;> rfl

/-- The block indices over the grid: at point t the node tile and the output tile are block (t, 0); the weight's one
    block is (0, 0). -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of x · wᵀ, x and w as the region finds them. -/
theorem embed_flushed (c : Dev nD) (t : Fin cfg0.N) :
    (dat0 (F := Ideal) V c).flushed 2 t
      = ((cfg0.win 2).blk t).view.read (Elt Ideal) (Cert.Spec.mmT (V c main_arg0) (V c main_arg2)) := by
  show (cfg0.win 2).cut (grid0.coords t) ((dat0 (F := Ideal) V c).after 2 t) = _
  rw [after0_2]
  unfold out0_2
  rw [View.canon_unit_zero origin2]
  simp only [View.ld_unit_zero (S := S5000x128) origin2, View.ld_unit_zero (S := S128x128) origin2]
  rw [embed_pay_eq]
  obtain ⟨e00, e01, e10, e11, e20, e21⟩ := tile_index t
  funext j
  have entry : ∀ (x : S100000x128.Idx → EReal) (w : S128x128.Idx → EReal),
      ∑ k : Fin 128, x (((cfg0.win 0).blk t).view.emb (ix2 (j 0) k)) * w (((cfg0.win 1).blk t).view.emb (ix2 (j 1) k))
        = ∑ k : Fin 128, x (ix2 ((((cfg0.win 2).blk t).view.emb j) 0) k) * w (ix2 ((((cfg0.win 2).blk t).view.emb j) 1) k) := by
    intro x w
    refine Finset.sum_congr rfl fun k _ => ?_
    have h0 : ((cfg0.win 0).blk t).view.emb (ix2 (j 0) k) = ix2 ((((cfg0.win 2).blk t).view.emb j) 0) k := by
      funext a; apply Fin.ext
      match a with
      | ⟨0, _⟩ => show win0_0.index t (0 : Fin 2) * 5000 + 1 * (j 0).val = win0_2.index t (0 : Fin 2) * 5000 + 1 * (j 0).val; omega
      | ⟨1, _⟩ => show win0_0.index t (1 : Fin 2) * 128 + 1 * k.val = k.val; omega
    have h1 : ((cfg0.win 1).blk t).view.emb (ix2 (j 1) k) = ix2 ((((cfg0.win 2).blk t).view.emb j) 1) k := by
      funext a; apply Fin.ext
      match a with
      | ⟨0, _⟩ => show win0_1.index t (0 : Fin 2) * 128 + 1 * (j 1).val = win0_2.index t (1 : Fin 2) * 128 + 1 * (j 1).val; omega
      | ⟨1, _⟩ => show win0_1.index t (1 : Fin 2) * 128 + 1 * k.val = k.val; omega
    exact congrArg₂ (fun a b : EReal => a * b) (congrArg x h0) (congrArg w h1)
  exact entry (V c main_arg0) (V c main_arg2)

/-- An index of the array is in point t's tile iff each coordinate is in the tile's range on its axis. -/
theorem mem_tile (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The twenty tiles cover the array: row r lies in tile r / 5000. -/
theorem tiles_cover (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  let t : Fin cfg0.N := ⟨(i 0).val / 5000, by omega⟩
  obtain ⟨-, -, -, -, e20, e21⟩ := tile_index t
  have ht : t.val = (i 0).val / 5000 := rfl
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array region 0 leaves: x · wᵀ, x and w as the region finds them. -/
theorem arr0 (c : Dev nD) :
    (dat0 (F := Ideal) V c).arrAt 2 cfg0.N = Cert.Spec.mmT (V c main_arg0) (V c main_arg2) :=
  (dat0 (F := Ideal) V c).arrAt_eq_of_cover 2 _ (fun t _ => embed_flushed V c t) (tiles_cover)

end Cert.KernelIdeal.Hand

end
-- ==== Proof.KI.ValUpd.lean ====
/-
  One round of the update, at one entry.

  The update kernel's payload takes three loaded 5000 × 128 tiles x0, x1, x2 and the two 128 × 128 weight
  matrices w2, w3 and returns, entry by entry,
      max(x0[p, q] + Σₖ x1[p, k] · w2[q, k] + Σₖ x2[p, k] · w3[q, k], 0):
  over the extended reals the roundings to the narrow format are the identity, the casts to the same shape do
  nothing, each product into the zero accumulator is the plain sum over the contracted axis (both operands are
  contracted along their SECOND axis, so the weight matrix enters transposed), and the comparison against the
  zero word is the maximum with 0. The three update kernels of the network have the same payload text, so the
  payload is named once (updPay) and read at an entry once; tile_upd then says that when the tiles are rows
  r of the whole arrays, the payload's entry (p, q) is entry (r, q) of the specification's update round.
-/
import proofs.«141754_j13958643712644_1_alg».proof.Proof.Gen.KernelIdeal.Skeleton
import proofs.«141754_j13958643712644_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The product's operand indices: rows of the left operand, rows of the right operand -/

/-- The left operand's row is the output's row. -/
theorem updDot_lhs_0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl

/-- The left operand's column is the contracted index. -/
theorem updDot_lhs_1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q

/-- The right operand's ROW is the output's column: the weight matrix enters transposed. -/
theorem updDot_rhs_0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl

/-- The right operand's column is the contracted index. -/
theorem updDot_rhs_1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-- The product into the zero accumulator, read at (p, q): the sum over k of x[p, k] · w[q, k]. -/
theorem upd_matmul_apply (x : FVec Ideal S5000x128 .bf16) (w : FVec Ideal S128x128 .bf16) (p : Fin 5000) (q : Fin 128) :
    matmul dot_S5000x128_S128x128_S5000x128_1_1_0_0_n_n none x w (constant (F := Ideal) S5000x128 .f32 0x00000000#32) (ix2 p q)
      = ∑ k : Fin 128, x (ix2 p k) * w (ix2 q k) := by
  show FloatOps.matmul dot_S5000x128_S128x128_S5000x128_1_1_0_0_n_n none x w (constant (F := Ideal) S5000x128 .f32 0x00000000#32) (ix2 p q) = _
  rw [Ideal.matmul_constant_zero_apply, ← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q) ((contrEquiv1 dot_S5000x128_S128x128_S5000x128_1_1_0_0_n_n 128 rfl rfl).symm k) = ix2 p k := funext fun a => Fin.ext (by
    match a with
    | ⟨0, _⟩ => exact updDot_lhs_0 _ _
    | ⟨1, _⟩ => exact (updDot_lhs_1 _ _).trans hk)
  have er : dot_S5000x128_S128x128_S5000x128_1_1_0_0_n_n.rhsIdx (ix2 p q) ((contrEquiv1 dot_S5000x128_S128x128_S5000x128_1_1_0_0_n_n 128 rfl rfl).symm k) = ix2 q k := funext fun a => Fin.ext (by
    match a with
    | ⟨0, _⟩ => exact updDot_rhs_0 _ _
    | ⟨1, _⟩ => exact (updDot_rhs_1 _ _).trans hk)
  rw [el, er]

/-! ## The payload, named once for the three update kernels -/

/-- The update payload as one term, operation for operation as the kernels print it. -/
def updPay (v0 v2 v5 : Vec Ideal S5000x128 .f32) (v8 v10 : Vec Ideal S128x128 .f32) : FVec Ideal S5000x128 .f32 :=
  maximumf
    (addf
      (addf (shapeCast S5000x128 v0 shapeCasts_S5000x128_S5000x128)
        (matmul dot_S5000x128_S128x128_S5000x128_1_1_0_0_n_n none
          (truncf .bf16 (shapeCast S5000x128 v2 shapeCasts_S5000x128_S5000x128) bitsLt_bf16_f32)
          (truncf .bf16 v8 bitsLt_bf16_f32) (constant S5000x128 .f32 0x00000000#32)))
      (matmul dot_S5000x128_S128x128_S5000x128_1_1_0_0_n_n none
        (truncf .bf16 (shapeCast S5000x128 v5 shapeCasts_S5000x128_S5000x128) bitsLt_bf16_f32)
        (truncf .bf16 v10 bitsLt_bf16_f32) (constant S5000x128 .f32 0x00000000#32)))
    (broadcast S5000x128 (Scalar.ofBits .f32 0x00000000#32))

/-- Each update kernel's payload is that term. -/
theorem k1_pay1_eq (v0 v2 v5 : Vec Ideal S5000x128 .f32) (v8 v10 : Vec Ideal S128x128 .f32) :
    k1_pay1 v0 v2 v5 v8 v10 = updPay v0 v2 v5 v8 v10 := rfl
theorem k2_pay1_eq (v0 v2 v5 : Vec Ideal S5000x128 .f32) (v8 v10 : Vec Ideal S128x128 .f32) :
    k2_pay1 v0 v2 v5 v8 v10 = updPay v0 v2 v5 v8 v10 := rfl
theorem k3_pay1_eq (v0 v2 v5 : Vec Ideal S5000x128 .f32) (v8 v10 : Vec Ideal S128x128 .f32) :
    k3_pay1 v0 v2 v5 v8 v10 = updPay v0 v2 v5 v8 v10 := rfl

/-- The payload at (p, q): max(x0[p, q] + Σₖ x1[p, k] · w2[q, k] + Σₖ x2[p, k] · w3[q, k], 0). -/
theorem updPay_apply (v0 v2 v5 : Vec Ideal S5000x128 .f32) (v8 v10 : Vec Ideal S128x128 .f32) (p : Fin 5000) (q : Fin 128) :
    updPay v0 v2 v5 v8 v10 (ix2 p q)
      = max (v0 (ix2 p q) + (∑ k : Fin 128, v2 (ix2 p k) * v8 (ix2 q k)) + ∑ k : Fin 128, v5 (ix2 p k) * v10 (ix2 q k)) 0 := by
  unfold updPay
  rw [maximumf_apply, addf_apply, addf_apply, upd_matmul_apply, upd_matmul_apply, broadcast_apply]
  simp only [shapeCast_self, truncf_apply]
  show max _ (Ideal.ofBits .f32 0x00000000#32) = _
  rw [Ideal.ofBits_zero_f32]

/-! ## From a tile to the whole arrays -/

/-- When row p of each tile is row r of its whole array and the weight tiles are the weight matrices, the payload's
    entry (p, q) is entry (r, q) of the update round of the whole arrays. -/
theorem tile_upd (xe mi mo : Cert.Spec.SN.Idx → EReal) (w2 w3 : Cert.Spec.SW.Idx → EReal)
    (x0 x1 x2 : Vec Ideal S5000x128 .f32) (x3 x4 : Vec Ideal S128x128 .f32) (r : Fin 100000) (p : Fin 5000) (q : Fin 128)
    (h0 : ∀ k : Fin 128, x0 (ix2 p k) = xe (ix2 r k)) (h1 : ∀ k : Fin 128, x1 (ix2 p k) = mi (ix2 r k))
    (h2 : ∀ k : Fin 128, x2 (ix2 p k) = mo (ix2 r k))
    (h3 : ∀ a b : Fin 128, x3 (ix2 a b) = w2 (ix2 a b)) (h4 : ∀ a b : Fin 128, x4 (ix2 a b) = w3 (ix2 a b)) :
    updPay x0 x1 x2 x3 x4 (ix2 p q) = Cert.Spec.upd xe mi mo w2 w3 (ix2 r q) := by
  rw [updPay_apply, Cert.Spec.upd_ix2]
  unfold Cert.Spec.updc Cert.Spec.mmTc
  rw [h0 q]
  simp only [h1, h2, h3, h4]

end Cert.KernelIdeal.Hand

end
-- ==== Proof.KI.Val1.lean ====
/-
  The array region 1 leaves: one round of the update.

  Region 1 walks 20 grid points; at point t its output window is rows 5000·t … 5000·t + 4999 of the output
  array, its three tile inputs are the same rows of x_emb, msg_in and msg_out, and its two weight windows are the
  whole 128 × 128 matrices. What point t writes back is therefore the tile of
      upd xe mi mo w2 w3 = max(xe + mi · w2ᵀ + mo · w3ᵀ, 0)
  on those rows, the arrays being the contents the region finds on entry. The 20 tiles cover all 100000 rows
  (row r is in the tile of point r / 5000), so after the last point the output array is that round of the update.
-/
import proofs.«141754_j13958643712644_1_alg».proof.Proof.KI.Reg1
import proofs.«141754_j13958643712644_1_alg».proof.Proof.KI.ValUpd
import proofs.«141754_j13958643712644_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- the core's buffer contents when the region is entered, over the extended reals
variable (V : (c : Dev nD) → (b : Ref sig .tc) → Buf (Elt Ideal) ((c : Thread nD τ).loc b))

theorem zeroOff1 : (![0, 0] : Fin 2 → Nat) = fun _ => 0 := funext fun a => by fin_cases a <;> rfl

/-- The block indices of region 1's windows, decided once over the 20 points: the four tile windows are at block
    (t, 0), the two weight windows at block (0, 0). -/
theorem tileIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the tile of point t is row 5000·t + p of the array. -/
def tileRow1 (t : Fin cfg1.N) (p : Fin 5000) : Fin 100000 :=
  ⟨t.val * 5000 + p.val, by have : cfg1.N = 20 := N_1; have := t.isLt; have := p.isLt; omega⟩

/-! ## Where a block's entry sits in its array -/

/-- Entry (p, k) of window 0's tile at point t is entry (5000·t + p, k) of its array. -/
theorem tileEmb1_0 (t : Fin cfg1.N) (p : Fin 5000) (k : Fin 128) :
    ((cfg1.win 0).blk t).view.emb (ix2 p k) = ix2 (tileRow1 t p) k := by
  obtain ⟨e0, e1, -⟩ := tileIdx1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Likewise window 1's. -/
theorem tileEmb1_1 (t : Fin cfg1.N) (p : Fin 5000) (k : Fin 128) :
    ((cfg1.win 1).blk t).view.emb (ix2 p k) = ix2 (tileRow1 t p) k := by
  obtain ⟨-, -, e0, e1, -⟩ := tileIdx1 t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- Likewise window 2's. -/
theorem tileEmb1_2 (t : Fin cfg1.N) (p : Fin 5000) (k : Fin 128) :
    ((cfg1.win 2).blk t).view.emb (ix2 p k) = ix2 (tileRow1 t p) k := by
  obtain ⟨-, -, -, -, e0, e1, -⟩ := tileIdx1 t
  funext a; apply Fin.ext
  match a with
  | ⟨0, _⟩ => show win1_2.index t (0 : Fin 2) * 5000 + 1 * p.val = t.val * 5000 + p.val; omega
  | ⟨1, _⟩ => show win1_2.index t (1 : Fin 2) * 128 + 1 * k.val = k.val; omega

/-- Window 3's block is its whole matrix. -/
theorem tileEmb1_3 (t : Fin cfg1.N) (a b : Fin 128) :
    ((cfg1.win 3).blk t).view.emb (ix2 a b) = ix2 a b := by
  obtain ⟨-, -, -, -, -, -, e0, e1, -⟩ := tileIdx1 t
  funext d; apply Fin.ext
  match d with
  | ⟨0, _⟩ => show win1_3.index t (0 : Fin 2) * 128 + 1 * a.val = a.val; omega
  | ⟨1, _⟩ => show win1_3.index t (1 : Fin 2) * 128 + 1 * b.val = b.val; omega

/-- Window 4's block is its whole matrix. -/
theorem tileEmb1_4 (t : Fin cfg1.N) (a b : Fin 128) :
    ((cfg1.win 4).blk t).view.emb (ix2 a b) = ix2 a b := by
  obtain ⟨-, -, -, -, -, -, -, -, e0, e1, -⟩ := tileIdx1 t
  funext d; apply Fin.ext
  match d with
  | ⟨0, _⟩ => show win1_4.index t (0 : Fin 2) * 128 + 1 * a.val = a.val; omega
  | ⟨1, _⟩ => show win1_4.index t (1 : Fin 2) * 128 + 1 * b.val = b.val; omega

/-- Entry (p, q) of the output tile at point t is entry (5000·t + p, q) of the output array. -/
theorem tileEmb1_5 (t : Fin cfg1.N) (p : Fin 5000) (q : Fin 128) :
    ((cfg1.win 5).blk t).view.emb (ix2 p q) = ix2 (tileRow1 t p) q := by
  obtain ⟨-, -, -, -, -, -, -, -, -, -, e0, e1⟩ := tileIdx1 t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-! ## The arrays the region reads, and its tiles of them -/

/-- The five arrays region 1 reads, as it finds them on entry, at their literal shapes: the embedded features,
    the two message arrays, the two weight matrices. -/
noncomputable def entXe1 (c : Dev nD) : Cert.Spec.SN.Idx → EReal := V c (Pipeline.arrRef spec1 0)
noncomputable def entMi1 (c : Dev nD) : Cert.Spec.SN.Idx → EReal := V c (Pipeline.arrRef spec1 1)
noncomputable def entMo1 (c : Dev nD) : Cert.Spec.SN.Idx → EReal := V c (Pipeline.arrRef spec1 2)
noncomputable def entWa1 (c : Dev nD) : Cert.Spec.SW.Idx → EReal := V c (Pipeline.arrRef spec1 3)
noncomputable def entWb1 (c : Dev nD) : Cert.Spec.SW.Idx → EReal := V c (Pipeline.arrRef spec1 4)

/-- Entry (p, k) of window 0's tile at point t is entry (5000·t + p, k) of the embedded features. -/
theorem tileAt1_0 (c : Dev nD) (t : Fin cfg1.N) (p : Fin 5000) (k : Fin 128) :
    iblk1 V c 0 t (ix2 p k) = entXe1 V c (ix2 (tileRow1 t p) k) :=
  congrArg (V c (Pipeline.arrRef spec1 0)) (tileEmb1_0 t p k)

/-- Likewise window 1's, of the incoming messages. -/
theorem tileAt1_1 (c : Dev nD) (t : Fin cfg1.N) (p : Fin 5000) (k : Fin 128) :
    iblk1 V c 1 t (ix2 p k) = entMi1 V c (ix2 (tileRow1 t p) k) :=
  congrArg (V c (Pipeline.arrRef spec1 1)) (tileEmb1_1 t p k)

/-- Likewise window 2's, of the outgoing messages. -/
theorem tileAt1_2 (c : Dev nD) (t : Fin cfg1.N) (p : Fin 5000) (k : Fin 128) :
    iblk1 V c 2 t (ix2 p k) = entMo1 V c (ix2 (tileRow1 t p) k) :=
  congrArg (V c (Pipeline.arrRef spec1 2)) (tileEmb1_2 t p k)

/-- Window 3's block is the first weight matrix, at every point. -/
theorem tileAt1_3 (c : Dev nD) (t : Fin cfg1.N) (a b : Fin 128) :
    iblk1 V c 3 t (ix2 a b) = entWa1 V c (ix2 a b) :=
  congrArg (V c (Pipeline.arrRef spec1 3)) (tileEmb1_3 t a b)

/-- Window 4's block is the second weight matrix, at every point. -/
theorem tileAt1_4 (c : Dev nD) (t : Fin cfg1.N) (a b : Fin 128) :
    iblk1 V c 4 t (ix2 a b) = entWb1 V c (ix2 a b) :=
  congrArg (V c (Pipeline.arrRef spec1 4)) (tileEmb1_4 t a b)

/-! ## What a point writes back -/

/-- What point t writes back is the tile at point t of the update round of the arrays the region finds on entry. -/
theorem wrote1_eq (c : Dev nD) (t : Fin cfg1.N) :
    (dat1 (F := Ideal) V c).flushed 5 t
      = ((cfg1.win 5).blk t).view.read (Elt Ideal)
          (Cert.Spec.upd (entXe1 V c) (entMi1 V c) (entMo1 V c) (entWa1 V c) (entWb1 V c)) := by
  show (cfg1.win 5).cut (grid1.coords t) ((dat1 V c).after 5 t) = _
  rw [after1_5]
  unfold out1_5
  rw [View.canon_unit_zero zeroOff1]
  simp only [View.ld_unit_zero (S := S5000x128) zeroOff1, View.ld_unit_zero (S := S128x128) zeroOff1]
  rw [k1_pay1_eq]
  funext j
  obtain ⟨p, q, rfl⟩ : ∃ (p : Fin 5000) (q : Fin 128), j = ix2 p q := ⟨j 0, j 1, eq_ix2 j⟩
  show updPay (iblk1 V c 0 t) (iblk1 V c 1 t) (iblk1 V c 2 t) (iblk1 V c 3 t) (iblk1 V c 4 t) (ix2 p q)
    = Cert.Spec.upd (entXe1 V c) (entMi1 V c) (entMo1 V c) (entWa1 V c) (entWb1 V c) (((cfg1.win 5).blk t).view.emb (ix2 p q))
  rw [tileEmb1_5]
  exact tile_upd _ _ _ _ _ _ _ _ _ _ (tileRow1 t p) p q
    (tileAt1_0 V c t p) (tileAt1_1 V c t p) (tileAt1_2 V c t p) (tileAt1_3 V c t) (tileAt1_4 V c t)

/-! ## The tiles cover the array -/

/-- An entry of the output array is in point t's tile iff each coordinate is in the tile's range on its axis. -/
theorem inTile1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v26).slice (win1_5.rect t)).set ↔ _
  rw [View.set_slice_whole, Rect.mem_set_unit]
  exact Iff.rfl

/-- Row r is in the tile of point r / 5000, and every point writes its tile back. -/
theorem tilesCover1 (i : S100000x128.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 128 := (i 1).isLt
  let t : Fin cfg1.N := ⟨(i 0).val / 5000, by omega⟩
  have ht : t.val = (i 0).val / 5000 := rfl
  obtain ⟨-, -, -, -, -, -, -, -, -, -, e0, e1⟩ := tileIdx1 t
  refine ⟨t, flush1_5 t, ?_⟩
  rw [inTile1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-! ## The array after the region -/

/-- After its last point region 1's output array is one round of the update of the arrays the region found on entry:
    max(x_emb + msg_in · W2ᵀ + msg_out · W3ᵀ, 0). -/
theorem arr1 (c : Dev nD) :
    (dat1 (F := Ideal) V c).arrAt 5 cfg1.N
      = Cert.Spec.upd (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5
    (Cert.Spec.upd (entXe1 V c) (entMi1 V c) (entMo1 V c) (entWa1 V c) (entWb1 V c))
    (fun t _ => wrote1_eq V c t) tilesCover1

end Cert.KernelIdeal.Hand

end
-- ==== Proof.KI.Val2.lean ====
/-
  The array region 2 leaves: one round of the update.

  Region 2 walks 20 grid points; at point t its output window is rows 5000·t … 5000·t + 4999 of the output
  array, its three tile inputs are the same rows of x_emb, msg_in and msg_out, and its two weight windows are the
  whole 128 × 128 matrices. What point t writes back is therefore the tile of
      upd xe mi mo w2 w3 = max(xe + mi · w2ᵀ + mo · w3ᵀ, 0)
  on those rows, the arrays being the contents the region finds on entry. The 20 tiles cover all 100000 rows
  (row r is in the tile of point r / 5000), so after the last point the output array is that round of the update.
-/
import proofs.«141754_j13958643712644_1_alg».proof.Proof.KI.Reg2
import proofs.«141754_j13958643712644_1_alg».proof.Proof.KI.ValUpd
import proofs.«141754_j13958643712644_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- the core's buffer contents when the region is entered, over the extended reals
variable (V : (c : Dev nD) → (b : Ref sig .tc) → Buf (Elt Ideal) ((c : Thread nD τ).loc b))

theorem zeroOff2 : (![0, 0] : Fin 2 → Nat) = fun _ => 0 := funext fun a => by fin_cases a <;> rfl

/-- The block indices of region 2's windows, decided once over the 20 points: the four tile windows are at block
    (t, 0), the two weight windows at block (0, 0). -/
theorem tileIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the tile of point t is row 5000·t + p of the array. -/
def tileRow2 (t : Fin cfg2.N) (p : Fin 5000) : Fin 100000 :=
  ⟨t.val * 5000 + p.val, by have : cfg2.N = 20 := N_2; have := t.isLt; have := p.isLt; omega⟩

/-! ## Where a block's entry sits in its array -/

/-- Entry (p, k) of window 0's tile at point t is entry (5000·t + p, k) of its array. -/
theorem tileEmb2_0 (t : Fin cfg2.N) (p : Fin 5000) (k : Fin 128) :
    ((cfg2.win 0).blk t).view.emb (ix2 p k) = ix2 (tileRow2 t p) k := by
  obtain ⟨e0, e1, -⟩ := tileIdx2 t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- Likewise window 1's. -/
theorem tileEmb2_1 (t : Fin cfg2.N) (p : Fin 5000) (k : Fin 128) :
    ((cfg2.win 1).blk t).view.emb (ix2 p k) = ix2 (tileRow2 t p) k := by
  obtain ⟨-, -, e0, e1, -⟩ := tileIdx2 t
  funext a; apply Fin.ext
  match a with
  | ⟨0, _⟩ => show win2_1.index t (0 : Fin 2) * 5000 + 1 * p.val = t.val * 5000 + p.val; omega
  | ⟨1, _⟩ => show win2_1.index t (1 : Fin 2) * 128 + 1 * k.val = k.val; omega

/-- Likewise window 2's. -/
theorem tileEmb2_2 (t : Fin cfg2.N) (p : Fin 5000) (k : Fin 128) :
    ((cfg2.win 2).blk t).view.emb (ix2 p k) = ix2 (tileRow2 t p) k := by
  obtain ⟨-, -, -, -, e0, e1, -⟩ := tileIdx2 t
  funext a; apply Fin.ext
  match a with
  | ⟨0, _⟩ => show win2_2.index t (0 : Fin 2) * 5000 + 1 * p.val = t.val * 5000 + p.val; omega
  | ⟨1, _⟩ => show win2_2.index t (1 : Fin 2) * 128 + 1 * k.val = k.val; omega

/-- Window 3's block is its whole matrix. -/
theorem tileEmb2_3 (t : Fin cfg2.N) (a b : Fin 128) :
    ((cfg2.win 3).blk t).view.emb (ix2 a b) = ix2 a b := by
  obtain ⟨-, -, -, -, -, -, e0, e1, -⟩ := tileIdx2 t
  funext d; apply Fin.ext
  match d with
  | ⟨0, _⟩ => show win2_3.index t (0 : Fin 2) * 128 + 1 * a.val = a.val; omega
  | ⟨1, _⟩ => show win2_3.index t (1 : Fin 2) * 128 + 1 * b.val = b.val; omega

/-- Window 4's block is its whole matrix. -/
theorem tileEmb2_4 (t : Fin cfg2.N) (a b : Fin 128) :
    ((cfg2.win 4).blk t).view.emb (ix2 a b) = ix2 a b := by
  obtain ⟨-, -, -, -, -, -, -, -, e0, e1, -⟩ := tileIdx2 t
  funext d; apply Fin.ext
  match d with
  | ⟨0, _⟩ => show win2_4.index t (0 : Fin 2) * 128 + 1 * a.val = a.val; omega
  | ⟨1, _⟩ => show win2_4.index t (1 : Fin 2) * 128 + 1 * b.val = b.val; omega

/-- Entry (p, q) of the output tile at point t is entry (5000·t + p, q) of the output array. -/
theorem tileEmb2_5 (t : Fin cfg2.N) (p : Fin 5000) (q : Fin 128) :
    ((cfg2.win 5).blk t).view.emb (ix2 p q) = ix2 (tileRow2 t p) q := by
  obtain ⟨-, -, -, -, -, -, -, -, -, -, e0, e1⟩ := tileIdx2 t
  funext a; apply Fin.ext
  match a with
  | ⟨0, _⟩ => show win2_5.index t (0 : Fin 2) * 5000 + 1 * p.val = t.val * 5000 + p.val; omega
  | ⟨1, _⟩ => show win2_5.index t (1 : Fin 2) * 128 + 1 * q.val = q.val; omega

/-! ## The arrays the region reads, and its tiles of them -/

/-- The five arrays region 2 reads, as it finds them on entry, at their literal shapes: the embedded features,
    the two message arrays, the two weight matrices. -/
noncomputable def entXe2 (c : Dev nD) : Cert.Spec.SN.Idx → EReal := V c (Pipeline.arrRef spec2 0)
noncomputable def entMi2 (c : Dev nD) : Cert.Spec.SN.Idx → EReal := V c (Pipeline.arrRef spec2 1)
noncomputable def entMo2 (c : Dev nD) : Cert.Spec.SN.Idx → EReal := V c (Pipeline.arrRef spec2 2)
noncomputable def entWa2 (c : Dev nD) : Cert.Spec.SW.Idx → EReal := V c (Pipeline.arrRef spec2 3)
noncomputable def entWb2 (c : Dev nD) : Cert.Spec.SW.Idx → EReal := V c (Pipeline.arrRef spec2 4)

/-- Entry (p, k) of window 0's tile at point t is entry (5000·t + p, k) of the embedded features. -/
theorem tileAt2_0 (c : Dev nD) (t : Fin cfg2.N) (p : Fin 5000) (k : Fin 128) :
    iblk2 V c 0 t (ix2 p k) = entXe2 V c (ix2 (tileRow2 t p) k) :=
  congrArg (V c (Pipeline.arrRef spec2 0)) (tileEmb2_0 t p k)

/-- Likewise window 1's, of the incoming messages. -/
theorem tileAt2_1 (c : Dev nD) (t : Fin cfg2.N) (p : Fin 5000) (k : Fin 128) :
    iblk2 V c 1 t (ix2 p k) = entMi2 V c (ix2 (tileRow2 t p) k) :=
  congrArg (V c (Pipeline.arrRef spec2 1)) (tileEmb2_1 t p k)

/-- Likewise window 2's, of the outgoing messages. -/
theorem tileAt2_2 (c : Dev nD) (t : Fin cfg2.N) (p : Fin 5000) (k : Fin 128) :
    iblk2 V c 2 t (ix2 p k) = entMo2 V c (ix2 (tileRow2 t p) k) :=
  congrArg (V c (Pipeline.arrRef spec2 2)) (tileEmb2_2 t p k)

/-- Window 3's block is the first weight matrix, at every point. -/
theorem tileAt2_3 (c : Dev nD) (t : Fin cfg2.N) (a b : Fin 128) :
    iblk2 V c 3 t (ix2 a b) = entWa2 V c (ix2 a b) :=
  congrArg (V c (Pipeline.arrRef spec2 3)) (tileEmb2_3 t a b)

/-- Window 4's block is the second weight matrix, at every point. -/
theorem tileAt2_4 (c : Dev nD) (t : Fin cfg2.N) (a b : Fin 128) :
    iblk2 V c 4 t (ix2 a b) = entWb2 V c (ix2 a b) :=
  congrArg (V c (Pipeline.arrRef spec2 4)) (tileEmb2_4 t a b)

/-! ## What a point writes back -/

/-- What point t writes back is the tile at point t of the update round of the arrays the region finds on entry. -/
theorem wrote2_eq (c : Dev nD) (t : Fin cfg2.N) :
    (dat2 (F := Ideal) V c).flushed 5 t
      = ((cfg2.win 5).blk t).view.read (Elt Ideal)
          (Cert.Spec.upd (entXe2 V c) (entMi2 V c) (entMo2 V c) (entWa2 V c) (entWb2 V c)) := by
  show (cfg2.win 5).cut (grid2.coords t) ((dat2 V c).after 5 t) = _
  rw [after2_5]
  unfold out2_5
  rw [View.canon_unit_zero zeroOff2]
  simp only [View.ld_unit_zero (S := S5000x128) zeroOff2, View.ld_unit_zero (S := S128x128) zeroOff2]
  rw [k2_pay1_eq]
  funext j
  obtain ⟨p, q, rfl⟩ : ∃ (p : Fin 5000) (q : Fin 128), j = ix2 p q := ⟨j 0, j 1, eq_ix2 j⟩
  show updPay (iblk2 V c 0 t) (iblk2 V c 1 t) (iblk2 V c 2 t) (iblk2 V c 3 t) (iblk2 V c 4 t) (ix2 p q)
    = Cert.Spec.upd (entXe2 V c) (entMi2 V c) (entMo2 V c) (entWa2 V c) (entWb2 V c) (((cfg2.win 5).blk t).view.emb (ix2 p q))
  rw [tileEmb2_5]
  exact tile_upd _ _ _ _ _ _ _ _ _ _ (tileRow2 t p) p q
    (tileAt2_0 V c t p) (tileAt2_1 V c t p) (tileAt2_2 V c t p) (tileAt2_3 V c t) (tileAt2_4 V c t)

/-! ## The tiles cover the array -/

/-- An entry of the output array is in point t's tile iff each coordinate is in the tile's range on its axis. -/
theorem inTile2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v47).slice (win2_5.rect t)).set ↔ _
  rw [View.set_slice_whole, Rect.mem_set_unit]
  exact Iff.rfl

/-- Row r is in the tile of point r / 5000, and every point writes its tile back. -/
theorem tilesCover2 (i : S100000x128.Idx) :
    ∃ t : Fin cfg2.N, (cfg2.win 5).flush t = true ∧ i ∈ ((cfg2.win 5).blk t).view.set := by
  have hN : cfg2.N = 20 := N_2
  have hi0 : (i 0).val < 100000 := (i 0).isLt
  have hi1 : (i 1).val < 128 := (i 1).isLt
  let t : Fin cfg2.N := ⟨(i 0).val / 5000, by omega⟩
  have ht : t.val = (i 0).val / 5000 := rfl
  obtain ⟨-, -, -, -, -, -, -, -, -, -, e0, e1⟩ := tileIdx2 t
  refine ⟨t, flush2_5 t, ?_⟩
  rw [inTile2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-! ## The array after the region -/

/-- After its last point region 2's output array is one round of the update of the arrays the region found on entry:
    max(x_emb + msg_in · W2ᵀ + msg_out · W3ᵀ, 0). -/
theorem arr2 (c : Dev nD) :
    (dat2 (F := Ideal) V c).arrAt 5 cfg2.N
      = Cert.Spec.upd (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5
    (Cert.Spec.upd (entXe2 V c) (entMi2 V c) (entMo2 V c) (entWa2 V c) (entWb2 V c))
    (fun t _ => wrote2_eq V c t) tilesCover2

end Cert.KernelIdeal.Hand

end
-- ==== Proof.KI.Val3.lean ====
/-
  The array region 3 leaves: one round of the update.

  Region 3 walks 20 grid points; at point t its output window is rows 5000·t … 5000·t + 4999 of the output
  array, its three tile inputs are the same rows of x_emb, msg_in and msg_out, and its two weight windows are the
  whole 128 × 128 matrices. What point t writes back is therefore the tile of
      upd xe mi mo w2 w3 = max(xe + mi · w2ᵀ + mo · w3ᵀ, 0)
  on those rows, the arrays being the contents the region finds on entry. The 20 tiles cover all 100000 rows
  (row r is in the tile of point r / 5000), so after the last point the output array is that round of the update.
-/
import proofs.«141754_j13958643712644_1_alg».proof.Proof.KI.Reg3
import proofs.«141754_j13958643712644_1_alg».proof.Proof.KI.ValUpd
import proofs.«141754_j13958643712644_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

-- the core's buffer contents when the region is entered, over the extended reals
variable (V : (c : Dev nD) → (b : Ref sig .tc) → Buf (Elt Ideal) ((c : Thread nD τ).loc b))

theorem zeroOff3 : (![0, 0] : Fin 2 → Nat) = fun _ => 0 := funext fun a => by fin_cases a <;> rfl

/-- The block indices of region 3's windows, decided once over the 20 points: the four tile windows are at block
    (t, 0), the two weight windows at block (0, 0). -/
theorem tileIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of the tile of point t is row 5000·t + p of the array. -/
def tileRow3 (t : Fin cfg3.N) (p : Fin 5000) : Fin 100000 :=
  ⟨t.val * 5000 + p.val, by have : cfg3.N = 20 := N_3; have := t.isLt; have := p.isLt; omega⟩

/-! ## Where a block's entry sits in its array -/

/-- Entry (p, k) of window 0's tile at point t is entry (5000·t + p, k) of its array. -/
theorem tileEmb3_0 (t : Fin cfg3.N) (p : Fin 5000) (k : Fin 128) :
    ((cfg3.win 0).blk t).view.emb (ix2 p k) = ix2 (tileRow3 t p) k := by
  obtain ⟨e0, e1, -⟩ := tileIdx3 t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

/-- Likewise window 1's. -/
theorem tileEmb3_1 (t : Fin cfg3.N) (p : Fin 5000) (k : Fin 128) :
    ((cfg3.win 1).blk t).view.emb (ix2 p k) = ix2 (tileRow3 t p) k := by
  obtain ⟨-, -, e0, e1, -⟩ := tileIdx3 t
  funext a; apply Fin.ext
  match a with
  | ⟨0, _⟩ => show win3_1.index t (0 : Fin 2) * 5000 + 1 * p.val = t.val * 5000 + p.val; omega
  | ⟨1, _⟩ => show win3_1.index t (1 : Fin 2) * 128 + 1 * k.val = k.val; omega

/-- Likewise window 2's. -/
theorem tileEmb3_2 (t : Fin cfg3.N) (p : Fin 5000) (k : Fin 128) :
    ((cfg3.win 2).blk t).view.emb (ix2 p k) = ix2 (tileRow3 t p) k := by
  obtain ⟨-, -, -, -, e0, e1, -⟩ := tileIdx3 t
  funext a; apply Fin.ext
  match a with
  | ⟨0, _⟩ => show win3_2.index t (0 : Fin 2) * 5000 + 1 * p.val = t.val * 5000 + p.val; omega
  | ⟨1, _⟩ => show win3_2.index t (1 : Fin 2) * 128 + 1 * k.val = k.val; omega

/-- Window 3's block is its whole matrix. -/
theorem tileEmb3_3 (t : Fin cfg3.N) (a b : Fin 128) :
    ((cfg3.win 3).blk t).view.emb (ix2 a b) = ix2 a b := by
  obtain ⟨-, -, -, -, -, -, e0, e1, -⟩ := tileIdx3 t
  funext d; apply Fin.ext
  match d with
  | ⟨0, _⟩ => show win3_3.index t (0 : Fin 2) * 128 + 1 * a.val = a.val; omega
  | ⟨1, _⟩ => show win3_3.index t (1 : Fin 2) * 128 + 1 * b.val = b.val; omega

/-- Window 4's block is its whole matrix. -/
theorem tileEmb3_4 (t : Fin cfg3.N) (a b : Fin 128) :
    ((cfg3.win 4).blk t).view.emb (ix2 a b) = ix2 a b := by
  obtain ⟨-, -, -, -, -, -, -, -, e0, e1, -⟩ := tileIdx3 t
  funext d; apply Fin.ext
  match d with
  | ⟨0, _⟩ => show win3_4.index t (0 : Fin 2) * 128 + 1 * a.val = a.val; omega
  | ⟨1, _⟩ => show win3_4.index t (1 : Fin 2) * 128 + 1 * b.val = b.val; omega

/-- Entry (p, q) of the output tile at point t is entry (5000·t + p, q) of the output array. -/
theorem tileEmb3_5 (t : Fin cfg3.N) (p : Fin 5000) (q : Fin 128) :
    ((cfg3.win 5).blk t).view.emb (ix2 p q) = ix2 (tileRow3 t p) q := by
  obtain ⟨-, -, -, -, -, -, -, -, -, -, e0, e1⟩ := tileIdx3 t
  funext a; apply Fin.ext
  match a with
  | ⟨0, _⟩ => show win3_5.index t (0 : Fin 2) * 5000 + 1 * p.val = t.val * 5000 + p.val; omega
  | ⟨1, _⟩ => show win3_5.index t (1 : Fin 2) * 128 + 1 * q.val = q.val; omega

/-! ## The arrays the region reads, and its tiles of them -/

/-- The five arrays region 3 reads, as it finds them on entry, at their literal shapes: the embedded features,
    the two message arrays, the two weight matrices. -/
noncomputable def entXe3 (c : Dev nD) : Cert.Spec.SN.Idx → EReal := V c (Pipeline.arrRef spec3 0)
noncomputable def entMi3 (c : Dev nD) : Cert.Spec.SN.Idx → EReal := V c (Pipeline.arrRef spec3 1)
noncomputable def entMo3 (c : Dev nD) : Cert.Spec.SN.Idx → EReal := V c (Pipeline.arrRef spec3 2)
noncomputable def entWa3 (c : Dev nD) : Cert.Spec.SW.Idx → EReal := V c (Pipeline.arrRef spec3 3)
noncomputable def entWb3 (c : Dev nD) : Cert.Spec.SW.Idx → EReal := V c (Pipeline.arrRef spec3 4)

/-- Entry (p, k) of window 0's tile at point t is entry (5000·t + p, k) of the embedded features. -/
theorem tileAt3_0 (c : Dev nD) (t : Fin cfg3.N) (p : Fin 5000) (k : Fin 128) :
    iblk3 V c 0 t (ix2 p k) = entXe3 V c (ix2 (tileRow3 t p) k) :=
  congrArg (V c (Pipeline.arrRef spec3 0)) (tileEmb3_0 t p k)

/-- Likewise window 1's, of the incoming messages. -/
theorem tileAt3_1 (c : Dev nD) (t : Fin cfg3.N) (p : Fin 5000) (k : Fin 128) :
    iblk3 V c 1 t (ix2 p k) = entMi3 V c (ix2 (tileRow3 t p) k) :=
  congrArg (V c (Pipeline.arrRef spec3 1)) (tileEmb3_1 t p k)

/-- Likewise window 2's, of the outgoing messages. -/
theorem tileAt3_2 (c : Dev nD) (t : Fin cfg3.N) (p : Fin 5000) (k : Fin 128) :
    iblk3 V c 2 t (ix2 p k) = entMo3 V c (ix2 (tileRow3 t p) k) :=
  congrArg (V c (Pipeline.arrRef spec3 2)) (tileEmb3_2 t p k)

/-- Window 3's block is the first weight matrix, at every point. -/
theorem tileAt3_3 (c : Dev nD) (t : Fin cfg3.N) (a b : Fin 128) :
    iblk3 V c 3 t (ix2 a b) = entWa3 V c (ix2 a b) :=
  congrArg (V c (Pipeline.arrRef spec3 3)) (tileEmb3_3 t a b)

/-- Window 4's block is the second weight matrix, at every point. -/
theorem tileAt3_4 (c : Dev nD) (t : Fin cfg3.N) (a b : Fin 128) :
    iblk3 V c 4 t (ix2 a b) = entWb3 V c (ix2 a b) :=
  congrArg (V c (Pipeline.arrRef spec3 4)) (tileEmb3_4 t a b)

/-! ## What a point writes back -/

/-- What point t writes back is the tile at point t of the update round of the arrays the region finds on entry. -/
theorem wrote3_eq (c : Dev nD) (t : Fin cfg3.N) :
    (dat3 (F := Ideal) V c).flushed 5 t
      = ((cfg3.win 5).blk t).view.read (Elt Ideal)
          (Cert.Spec.upd (entXe3 V c) (entMi3 V c) (entMo3 V c) (entWa3 V c) (entWb3 V c)) := by
  show (cfg3.win 5).cut (grid3.coords t) ((dat3 V c).after 5 t) = _
  rw [after3_5]
  unfold out3_5
  rw [View.canon_unit_zero zeroOff3]
  simp only [View.ld_unit_zero (S := S5000x128) zeroOff3, View.ld_unit_zero (S := S128x128) zeroOff3]
  rw [k3_pay1_eq]
  funext j
  obtain ⟨p, q, rfl⟩ : ∃ (p : Fin 5000) (q : Fin 128), j = ix2 p q := ⟨j 0, j 1, eq_ix2 j⟩
  show updPay (iblk3 V c 0 t) (iblk3 V c 1 t) (iblk3 V c 2 t) (iblk3 V c 3 t) (iblk3 V c 4 t) (ix2 p q)
    = Cert.Spec.upd (entXe3 V c) (entMi3 V c) (entMo3 V c) (entWa3 V c) (entWb3 V c) (((cfg3.win 5).blk t).view.emb (ix2 p q))
  rw [tileEmb3_5]
  exact tile_upd _ _ _ _ _ _ _ _ _ _ (tileRow3 t p) p q
    (tileAt3_0 V c t p) (tileAt3_1 V c t p) (tileAt3_2 V c t p) (tileAt3_3 V c t) (tileAt3_4 V c t)

/-! ## The tiles cover the array -/

/-- An entry of the output array is in point t's tile iff each coordinate is in the tile's range on its axis. -/
theorem inTile3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v68).slice (win3_5.rect t)).set ↔ _
  rw [View.set_slice_whole, Rect.mem_set_unit]
  exact Iff.rfl

/-- Row r is in the tile of point r / 5000, and every point writes its tile back. -/
theorem tilesCover3 (i : S100000x128.Idx) :
    ∃ t : Fin cfg3.N, (cfg3.win 5).flush t = true ∧ i ∈ ((cfg3.win 5).blk t).view.set := by
  have hN : cfg3.N = 20 := N_3
  have hi0 : (i 0).val < 100000 := (i 0).isLt
  have hi1 : (i 1).val < 128 := (i 1).isLt
  let t : Fin cfg3.N := ⟨(i 0).val / 5000, by omega⟩
  have ht : t.val = (i 0).val / 5000 := rfl
  obtain ⟨-, -, -, -, -, -, -, -, -, -, e0, e1⟩ := tileIdx3 t
  refine ⟨t, flush3_5 t, ?_⟩
  rw [inTile3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-! ## The array after the region -/

/-- After its last point region 3's output array is one round of the update of the arrays the region found on entry:
    max(x_emb + msg_in · W2ᵀ + msg_out · W3ᵀ, 0). -/
theorem arr3 (c : Dev nD) :
    (dat3 (F := Ideal) V c).arrAt 5 cfg3.N
      = Cert.Spec.upd (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5
    (Cert.Spec.upd (entXe3 V c) (entMi3 V c) (entMo3 V c) (entWa3 V c) (entWb3 V c))
    (fun t _ => wrote3_eq V c t) tilesCover3

end Cert.KernelIdeal.Hand

end
-- ==== Proof.KI.ValSum.lean ====
/-
  The last stage, away from the grid: what one step of the running column sum does to one column, and the regrouping
  of a sum over 20 tiles of 5000 rows into the sum over all 100000 rows.

  * the zero row the first point stores reads 0 at every column;
  * one step takes the row accumulated so far, `a`, and a 5000 × 128 tile `x`, and leaves at column q the value
    a[0, q] + Σ_p x[p, q] (the tile summed over its rows, laid out as one row, added to the accumulator);
  * Σ_{t < 20} Σ_{p < 5000} f (5000·t + p) = Σ_{r < 100000} f r: every row r is 5000·t + p for exactly one (t, p).
-/
import proofs.«141754_j13958643712644_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

/-! ## The two stored rows at a column -/

/-- The row stored at the first point is zero at every column. -/
theorem zeroRow_apply (q : Fin 128) : (k4_pay1 (F := Ideal)) (ix2 (0 : Fin 1) q) = 0 := by
  unfold k4_pay1
  rw [shapeCast_self]
  exact Ideal.ofBits_zero_f32

/-- A 5000 × 128 tile summed over its rows, read at column q: the sum of the column's 5000 entries. -/
theorem rowSum_apply (x : Vec Ideal S5000x128 .f32) (h : S5000x128.Reduces [0] S128)
    (hacc : (0x00000000#32 : BitVec 32) = 0x00000000#32) (q : Fin 128) :
    multiReduction (F := Ideal) .add [0] S128 x 0x00000000#32 h (.inl rfl) hacc (ix1 q)
      = ∑ p : Fin 5000, x (ix2 p q) := by
  refine (Ideal.multiReduction_add_single x 0x00000000#32 h (.inl rfl) hacc (ix1 q)).trans ?_
  refine Finset.sum_congr rfl fun p _ => congrArg x ?_
  funext a
  match a with
  | ⟨0, _⟩ => exact Fin.ext rfl
  | ⟨1, _⟩ => exact Fin.ext rfl

/-- One step of the running sum at column q: the accumulator's entry plus the tile's column sum. -/
theorem step_apply (a : Vec Ideal S1x128 .f32) (x : Vec Ideal S5000x128 .f32) (q : Fin 128) :
    k4_pay2 a x (ix2 (0 : Fin 1) q) = a (ix2 (0 : Fin 1) q) + ∑ p : Fin 5000, x (ix2 p q) := by
  unfold k4_pay2
  rw [shapeCast_self, shapeCast_self, addf_apply]
  congr 1
  refine (shapeCast_addUnit_apply ![128] _ shapeCasts_S128_S1x128 (ix2 (0 : Fin 1) q)).trans ?_
  refine Eq.trans ?_ (rowSum_apply x reduces_S5000x128_S128 rfl q)
  congr 1
  funext b
  match b with
  | ⟨0, _⟩ => rfl

/-! ## The running sum over a sequence of tiles -/

/-- The row held after tile n of a sequence of tiles x 0, x 1, …: the zero row, stepped through tiles 0 … n. -/
def chain (x : ℕ → Vec Ideal S5000x128 .f32) : ℕ → Vec Ideal S1x128 .f32
  | 0 => k4_pay2 (k4_pay1 (F := Ideal)) (x 0)
  | n + 1 => k4_pay2 (chain x n) (x (n + 1))

/-- Its column q is the sum, over the tiles so far and over each tile's rows, of the tiles' entries in that column:
    by induction on the tile, 0 + a = a at the start and one more summand at each step. -/
theorem chain_apply (x : ℕ → Vec Ideal S5000x128 .f32) (q : Fin 128) :
    ∀ n : ℕ, chain x n (ix2 (0 : Fin 1) q) = ∑ t ∈ Finset.range (n + 1), ∑ p : Fin 5000, x t (ix2 p q)
  | 0 => by
    show k4_pay2 (k4_pay1 (F := Ideal)) (x 0) (ix2 (0 : Fin 1) q) = _
    rw [step_apply, zeroRow_apply, zero_add, Finset.sum_range_one]
  | n + 1 => by
    show k4_pay2 (chain x n) (x (n + 1)) (ix2 (0 : Fin 1) q) = _
    rw [step_apply, chain_apply x q n, Finset.sum_range_succ _ (n + 1)]

/-! ## Twenty tiles of 5000 rows are the 100000 rows -/

/-- Row 5000·t + p of the array, for tile t and row p inside the tile. -/
def tileRow (t : Fin 20) (p : Fin 5000) : Fin 100000 := ⟨5000 * t.val + p.val, by omega⟩

/-- Summing tile by tile, then inside each tile, is summing over all rows (in any commutative monoid). -/
theorem sum_tiles {M : Type*} [AddCommMonoid M] (f : Fin 100000 → M) :
    ∑ t : Fin 20, ∑ p : Fin 5000, f (tileRow t p) = ∑ r : Fin 100000, f r := by
  rw [← Fintype.sum_prod_type' (fun t p => f (tileRow t p))]
  refine Fintype.sum_equiv (finProdFinEquiv.trans (finCongr (by norm_num))) _ _ fun x => ?_
  congr 1
  apply Fin.ext
  show 5000 * x.1.val + x.2.val = x.2.val + 5000 * x.1.val
  omega

/-- The same with the tiles counted by a range of naturals: f is read at 5000·t + p wherever that is a row. -/
theorem sum_range_tiles {M : Type*} [AddCommMonoid M] (f : Fin 100000 → M) (g : ℕ → Fin 5000 → M)
    (hg : ∀ (t : Fin 20) (p : Fin 5000), g t.val p = f (tileRow t p)) :
    ∑ t ∈ Finset.range 20, ∑ p : Fin 5000, g t p = ∑ r : Fin 100000, f r := by
  rw [← sum_tiles f, ← Fin.sum_univ_eq_sum_range (fun t => ∑ p : Fin 5000, g t p) 20]
  exact Finset.sum_congr rfl fun t _ => Finset.sum_congr rfl fun p _ => hg t p

end Cert.KernelIdeal.Hand

end
-- ==== Proof.KI.Val4.lean ====
/-
  The last stage on the grid: twenty points, point t reading rows 5000·t … 5000·t + 4999 of the node array mu
  (100000 × 128) as one 5000 × 128 tile, a one-row accumulator (1 × 128) set to zero at the first point, increased at
  every point by the tile's column sums, and copied to the one-row result at the last point. So the result's column q
  is Σ_{t < 20} Σ_{p < 5000} mu[5000·t + p, q] = Σ_{r < 100000} mu[r, q]: the column sums of mu.
-/
import proofs.«141754_j13958643712644_1_alg».proof.Proof.KI.Reg4
import proofs.«141754_j13958643712644_1_alg».proof.Proof.KI.ValSum
import proofs.«141754_j13958643712644_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The node array the region reads, mu, as the region finds it. -/
abbrev mu4 (c : Dev nD) : Cert.Spec.SN.Idx → EReal := V c main_v68

/-- The last point of the grid, point 19. -/
abbrev lastPt4 : Fin cfg4.N := ⟨19, Nat.lt_of_lt_of_eq (by decide) N_4.symm⟩

/-! ## A tile is a twentieth of the array -/

/-- The tile's block index at point t is (t, 0); the result's is (0, 0) at every point. Decided once over the grid. -/
theorem block_index4 : ∀ t : Fin cfg4.N, win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- Entry (p, q) of the tile read at point t is entry (5000·t + p, q) of mu. -/
theorem tile_apply (c : Dev nD) (t : Fin cfg4.N) (p : Fin 5000) (q : Fin 128) (h : 5000 * t.val + p.val < 100000) :
    (iblk4 V c 0 t : Vec Ideal S5000x128 .f32) (ix2 p q)
      = mu4 V c (ix2 (⟨5000 * t.val + p.val, h⟩ : Fin 100000) q) := by
  unfold iblk4
  rw [View.read_apply]
  show V c main_v68 _ = V c main_v68 _
  congr 1
  funext a
  apply Fin.ext
  match a with
  | ⟨0, _⟩ => show win4_0.index t (0 : Fin 2) * 5000 + 1 * p.val = 5000 * t.val + p.val
              rw [(block_index4 t).1]; omega
  | ⟨1, _⟩ => show win4_0.index t (1 : Fin 2) * 128 + 1 * q.val = q.val
              rw [(block_index4 t).2.1]; omega

/-! ## The accumulator after point n -/

/-- The tiles in point order, as a sequence over all naturals (zero past the grid, never read). -/
def tiles4 (c : Dev nD) : ℕ → Vec Ideal S5000x128 .f32 :=
  fun t => if h : t < cfg4.N then iblk4 V c 0 ⟨t, h⟩ else fun _ => 0

/-- The accumulator after point n is the running sum over tiles 0 … n. -/
theorem acc4_eq_chain (c : Dev nD) : ∀ (n : ℕ) (h : n < cfg4.N), acc4 V c n h = chain (tiles4 V c) n
  | 0, h => by
    rw [acc4_zero]
    show _ = k4_pay2 _ (tiles4 V c 0)
    unfold tiles4
    rw [dif_pos h]
  | n + 1, h => by
    rw [acc4_succ, acc4_eq_chain c n]
    show _ = k4_pay2 _ (tiles4 V c (n + 1))
    unfold tiles4
    rw [dif_pos h]

/-- The column sums of mu as a one-row array. -/
abbrev colsumRow (c : Dev nD) : S1x128.Idx → EReal :=
  fun i => Cert.Spec.colsumc (mu4 V c) (i 1)

/-- After the last point the accumulator holds the column sums of mu. -/
theorem acc4_last (c : Dev nD) (h : 19 < cfg4.N) : acc4 V c 19 h = colsumRow V c := by
  funext i
  obtain ⟨z, q, rfl⟩ : ∃ (z : Fin 1) (q : Fin 128), i = ix2 z q := ⟨i 0, i 1, eq_ix2 i⟩
  obtain rfl : z = 0 := Subsingleton.elim _ _
  rw [acc4_eq_chain, chain_apply]
  show _ = ∑ r : Fin 100000, mu4 V c (ix2 r q)
  refine sum_range_tiles (M := EReal) (fun r => mu4 V c (ix2 r q)) (fun t p => tiles4 V c t (ix2 p q)) fun t p => ?_
  have hN : cfg4.N = 20 := N_4
  have ht : t.val < cfg4.N := by rw [hN]; exact t.isLt
  show tiles4 V c t.val (ix2 p q) = _
  unfold tiles4
  rw [dif_pos ht]
  exact tile_apply V c ⟨t.val, ht⟩ p q _

/-! ## From the one write-back to the array -/

/-- The last point writes the column sums back: the result's block is the whole one-row array. -/
theorem flushed4_eq (c : Dev nD) (t : Fin cfg4.N) (hf : (cfg4.win 1).flush t = true) :
    (dat4 (F := Ideal) V c).flushed 1 t = ((cfg4.win 1).blk t).view.read (Elt Ideal) (colsumRow V c) := by
  have hN : cfg4.N = 20 := N_4
  have h19 : t.val = 19 := by have := (flush4_1 t).mp hf; have := t.isLt; omega
  obtain rfl : t = lastPt4 := Fin.ext h19
  show (cfg4.win 1).cut (grid4.coords lastPt4) ((dat4 (F := Ideal) V c).after 1 lastPt4) = _
  rw [after4_1, acc4_last]
  have hz : (fun a => win4_1.index lastPt4 a * main_v69.ty.shape.size a) = fun _ => 0 :=
    funext fun a => by
      match a with
      | ⟨0, _⟩ => show win4_1.index lastPt4 (0 : Fin 2) * 1 = 0; rw [(block_index4 lastPt4).2.2.1]
      | ⟨1, _⟩ => show win4_1.index lastPt4 (1 : Fin 2) * 128 = 0; rw [(block_index4 lastPt4).2.2.2]
  have inb : ∀ a, win4_1.index lastPt4 a * main_v69.ty.shape.size a + main_v69.ty.shape.size a ≤ main_v69.ty.shape.size a :=
    fun a => by
      have h : win4_1.index lastPt4 a * main_v69.ty.shape.size a = 0 := congrFun hz a
      rw [h]
      exact Nat.le_of_eq (Nat.zero_add _)
  exact (Memref.read_access_unit_zero (Elt Ideal) main_v69 hz inb (colsumRow V c)).symm

/-- So the region leaves the column sums of mu in its result array. -/
theorem arr4 (c : Dev nD) : (dat4 (F := Ideal) V c).arrAt 1 cfg4.N
    = (fun i : S1x128.Idx => Cert.Spec.colsumc (V c main_v68 : Cert.Spec.SN.Idx → EReal) (i 1)) := by
  show _ = colsumRow V c
  refine (dat4 (F := Ideal) V c).arrAt_eq_of_cover 1 (colsumRow V c) (flushed4_eq V c) fun i => ?_
  refine ⟨lastPt4, (flush4_1 lastPt4).mpr rfl, ?_⟩
  show i ∈ ((View.whole main_v69).slice (win4_1.rect lastPt4)).set
  rw [View.set_slice_whole, Rect.mem_set_unit]
  intro a
  have h0 : (i 0 : Nat) < 1 := (i 0).isLt
  have h1 : (i 1 : Nat) < 128 := (i 1).isLt
  match a with
  | ⟨0, _⟩ => show win4_1.index lastPt4 (0 : Fin 2) * 1 ≤ (i 0 : Nat) ∧ (i 0 : Nat) < win4_1.index lastPt4 (0 : Fin 2) * 1 + 1
              rw [(block_index4 lastPt4).2.2.1]; omega
  | ⟨1, _⟩ => show win4_1.index lastPt4 (1 : Fin 2) * 128 ≤ (i 1 : Nat) ∧ (i 1 : Nat) < win4_1.index lastPt4 (1 : Fin 2) * 128 + 128
              rw [(block_index4 lastPt4).2.2.2]; omega

end Cert.KernelIdeal.Hand

end
-- ==== Proof.KI.Chain.lean ====
/-
  The result of the idealized program, read back through the run. The program is a message-passing network of three
  rounds over a graph with 100000 nodes and 1600000 edges: the node features x are embedded once as x·w1ᵀ; each round
  gathers the current features along the edges in both directions, sums what arrives at every node, and replaces the
  features by max(x·w1ᵀ + in·w2ᵀ + out·w3ᵀ, 0), the first round starting from the array of zeros; the result is the
  sum of the third round's features over all nodes, column by column.

  The contents of the buffers at the boundaries between the items of the program are a fold from the launch memory.
  Here each boundary is read at the few buffers a later item consumes: a host stretch's results as functions of what
  it reads, a kernel region's output by the region's value theorem, and a buffer an item does not write as it was
  before (an array a region only reads is left as entered). Chained from the last boundary back to the launch, the
  result buffer is the column sum of the third round, the three rounds being functions of the five launch arguments.
-/
import proofs.«141754_j13958643712644_1_alg».proof.Proof.KI.Fold
import proofs.«141754_j13958643712644_1_alg».proof.Proof.KI.Msg
import proofs.«141754_j13958643712644_1_alg».proof.Proof.KI.Val0
import proofs.«141754_j13958643712644_1_alg».proof.Proof.KI.Val1
import proofs.«141754_j13958643712644_1_alg».proof.Proof.KI.Val2
import proofs.«141754_j13958643712644_1_alg».proof.Proof.KI.Val3
import proofs.«141754_j13958643712644_1_alg».proof.Proof.KI.Val4
import proofs.«141754_j13958643712644_1_alg».proof.Proof.Spec
import proofs.«141754_j13958643712644_1_alg».proof.Proof.Gen.KernelIdeal.Regions
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The host stretches, over any contents of the buffers -/

section Stretch

variable {F : FTy → Type} [FloatOps F] (W : Valuation τ sig (Elt F))

/-- The first stretch leaves every edge's source node in `main_v1` … -/
theorem st0_src : StableHlo.after hostOps0 W (Proc.devRef .tc main_v1) = srcOf (W (Proc.devRef .tc main_arg1)) := by
  after_results; rfl

/-- … and every edge's target node in `main_v3`. -/
theorem st0_dst : StableHlo.after hostOps0 W (Proc.devRef .tc main_v3) = dstOf (W (Proc.devRef .tc main_arg1)) := by
  after_results; rfl

/-- Round 1's incoming messages are aggregated from the array of zeros. -/
theorem st1_in : StableHlo.after hostOps1 W (Proc.devRef .tc main_v15)
    = msg zerosN (W (Proc.devRef .tc main_v1)) (W (Proc.devRef .tc main_v3)) := by
  after_results_simp; rfl

/-- Round 1's outgoing messages likewise, the two endpoint lists exchanged. -/
theorem st1_out : StableHlo.after hostOps1 W (Proc.devRef .tc main_v25)
    = msg zerosN (W (Proc.devRef .tc main_v3)) (W (Proc.devRef .tc main_v1)) := by
  after_results_simp; rfl

/-- Round 2's incoming messages are aggregated from round 1's features. -/
theorem st2_in : StableHlo.after hostOps2 W (Proc.devRef .tc main_v36)
    = msg (W (Proc.devRef .tc main_v26)) (W (Proc.devRef .tc main_v1)) (W (Proc.devRef .tc main_v3)) := by
  after_results_simp; rfl

theorem st2_out : StableHlo.after hostOps2 W (Proc.devRef .tc main_v46)
    = msg (W (Proc.devRef .tc main_v26)) (W (Proc.devRef .tc main_v3)) (W (Proc.devRef .tc main_v1)) := by
  after_results_simp; rfl

/-- Round 3's incoming messages are aggregated from round 2's features. -/
theorem st3_in : StableHlo.after hostOps3 W (Proc.devRef .tc main_v57)
    = msg (W (Proc.devRef .tc main_v47)) (W (Proc.devRef .tc main_v1)) (W (Proc.devRef .tc main_v3)) := by
  after_results_simp; rfl

theorem st3_out : StableHlo.after hostOps3 W (Proc.devRef .tc main_v67)
    = msg (W (Proc.devRef .tc main_v47)) (W (Proc.devRef .tc main_v3)) (W (Proc.devRef .tc main_v1)) := by
  after_results_simp; rfl

/-- The last stretch drops the unit axis of the 1 × 128 row of column sums. -/
theorem st5_out : StableHlo.after hostOps5 W (Proc.devRef .tc main_v70)
    = shapeCast S128 (W (Proc.devRef .tc main_v69)) shapeCasts_S1x128_S128 := by
  after_results; rfl

/-- The aggregation respects equal arguments. -/
theorem msg_congr {mu mu' : (⟨S100000x128, .f32⟩ : BufTy).Contents (Elt F)} {gi gi' si si' : (⟨S1600000, .i32⟩ : BufTy).Contents (Elt F)}
    (h1 : mu = mu') (h2 : gi = gi') (h3 : si = si') : msg mu gi si = msg mu' gi' si' := by
  subst h1 h2 h3; rfl

end Stretch

/-- One update round respects equal arguments. -/
theorem upd_congr {a a' b b' d d' : Cert.Spec.SN.Idx → EReal} {u u' v v' : Cert.Spec.SW.Idx → EReal}
    (h1 : a = a') (h2 : b = b') (h3 : d = d') (h4 : u = u') (h5 : v = v') :
    Cert.Spec.upd a b d u v = Cert.Spec.upd a' b' d' u' v' := by
  subst h1 h2 h3 h4 h5; rfl

/-- A 1 × 128 row holding the column sums of `mu`, its unit axis dropped, is the vector of column sums. -/
theorem colsum_of_row (W : Valuation τ sig (Elt Ideal)) (mu : Cert.Spec.SN.Idx → EReal)
    (h : W (Proc.devRef .tc main_v69) = fun i : S1x128.Idx => Cert.Spec.colsumc mu (i 1)) :
    StableHlo.after hostOps5 W (Proc.devRef .tc main_v70) = Cert.Spec.colsum mu := by
  refine (st5_out W).trans ?_
  funext j
  rw [eq_ix1 j]
  refine (shapeCast_1a_a_apply (a := 128) _ _ (j 0)).trans ?_
  rw [h]
  rfl

/-! ## The three rounds as functions of the launch arguments -/

/-- A 100000 × 128 array of node features over the extended reals. -/
abbrev NodeArr : Type := (⟨S100000x128, .f32⟩ : BufTy).Contents (Elt Ideal)
/-- A 128 × 128 weight matrix. -/
abbrev WeightArr : Type := (⟨S128x128, .f32⟩ : BufTy).Contents (Elt Ideal)
/-- The 2 × 1600000 edge array. -/
abbrev EdgeArr : Type := (⟨S2x1600000, .i32⟩ : BufTy).Contents (Elt Ideal)

/-- Round 1: the embedded features x·w1ᵀ updated with the messages aggregated from the array of zeros. -/
def kmu1 (x : NodeArr) (e : EdgeArr) (w1 w2 w3 : WeightArr) : NodeArr :=
  Cert.Spec.upd (Cert.Spec.mmT x w1) (msgIn zerosN e) (msgOut zerosN e) w2 w3

/-- Round 2: the same update with the messages aggregated from round 1's features. -/
def kmu2 (x : NodeArr) (e : EdgeArr) (w1 w2 w3 : WeightArr) : NodeArr :=
  Cert.Spec.upd (Cert.Spec.mmT x w1) (msgIn (kmu1 x e w1 w2 w3) e) (msgOut (kmu1 x e w1 w2 w3) e) w2 w3

/-- Round 3: the same update with the messages aggregated from round 2's features. -/
def kmu3 (x : NodeArr) (e : EdgeArr) (w1 w2 w3 : WeightArr) : NodeArr :=
  Cert.Spec.upd (Cert.Spec.mmT x w1) (msgIn (kmu2 x e w1 w2 w3) e) (msgOut (kmu2 x e w1 w2 w3) e) w2 w3

/-! ## A region leaves the arrays it only reads as it found them -/

section Inputs

variable {F : FTy → Type} [FloatOps F]
variable (m : (ℓ : Loc nD τ sig) → Buf (Elt F) ℓ) (ρ : Dev nD → PrngReg) (c : Dev nD)

theorem W4_in (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin cfg1.N).trans (A_eq1 (V3 m ρ) c w))

theorem W6_in (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin cfg2.N).trans (A_eq2 (V5 m ρ) c w))

end Inputs

/-! ## The boundaries, from the launch to the result -/

section Run

variable (m : (ℓ : Loc nD τ sig) → Buf (Elt Ideal) ℓ) (ρ : Dev nD → PrngReg) (c : Dev nD)

/-- The node features, the edge array and the three weight matrices at launch. -/
abbrev aX : NodeArr := m ((c : Thread nD τ).loc main_arg0)
abbrev aE : EdgeArr := m ((c : Thread nD τ).loc main_arg1)
abbrev aW1 : WeightArr := m ((c : Thread nD τ).loc main_arg2)
abbrev aW2 : WeightArr := m ((c : Thread nD τ).loc main_arg3)
abbrev aW3 : WeightArr := m ((c : Thread nD τ).loc main_arg4)

/-- What every boundary from region 0's exit to region 3's entry holds in the buffers the later items only read: the
    two endpoint lists of the edges, the embedded features and the two update weights. -/
structure Carried (W : Valuation τ sig (Elt Ideal)) : Prop where
  src : W (Proc.devRef .tc main_v1) = srcOf (aE m c)
  dst : W (Proc.devRef .tc main_v3) = dstOf (aE m c)
  xe : W (Proc.devRef .tc main_v4) = Cert.Spec.mmT (aX m c) (aW1 m c)
  w2 : W (Proc.devRef .tc main_arg3) = aW2 m c
  w3 : W (Proc.devRef .tc main_arg4) = aW3 m c

/-- A host stretch that writes none of the five keeps them. -/
theorem Carried.host {ops : List (HloOp τ sig (Elt Ideal))} {Ws : List (Ref sig .tc)}
    (hW : ops.Forall fun op => op.writes ⊆ (Ws.map (Proc.devRef (τ := τ) .tc)).toFinset)
    (h1 : main_v1 ∉ Ws) (h3 : main_v3 ∉ Ws) (h4 : main_v4 ∉ Ws) (ha3 : main_arg3 ∉ Ws) (ha4 : main_arg4 ∉ Ws)
    {W : Valuation τ sig (Elt Ideal)} (h : Carried m c W) : Carried m c (StableHlo.after ops W) where
  src := (StableHlo.after_of_writes_sub ops W hW h1).trans h.src
  dst := (StableHlo.after_of_writes_sub ops W hW h3).trans h.dst
  xe := (StableHlo.after_of_writes_sub ops W hW h4).trans h.xe
  w2 := (StableHlo.after_of_writes_sub ops W hW ha3).trans h.w2
  w3 := (StableHlo.after_of_writes_sub ops W hW ha4).trans h.w3

/-! ### Region 0's entry -/

theorem b1_src : W1 m ρ c (Proc.devRef .tc main_v1) = srcOf (aE m c) := st0_src (W0 m ρ c)
theorem b1_dst : W1 m ρ c (Proc.devRef .tc main_v3) = dstOf (aE m c) := st0_dst (W0 m ρ c)
theorem b1_x : W1 m ρ c (Proc.devRef .tc main_arg0) = aX m c :=
  StableHlo.after_of_writes_sub hostOps0 _ hostOps0_writes (by decide)
theorem b1_w1 : W1 m ρ c (Proc.devRef .tc main_arg2) = aW1 m c :=
  StableHlo.after_of_writes_sub hostOps0 _ hostOps0_writes (by decide)
theorem b1_w2 : W1 m ρ c (Proc.devRef .tc main_arg3) = aW2 m c :=
  StableHlo.after_of_writes_sub hostOps0 _ hostOps0_writes (by decide)
theorem b1_w3 : W1 m ρ c (Proc.devRef .tc main_arg4) = aW3 m c :=
  StableHlo.after_of_writes_sub hostOps0 _ hostOps0_writes (by decide)

/-! ### Region 0's exit: the embedded features -/

theorem carried2 : Carried m c (W2 m ρ c) where
  src := (W2_of_ne m ρ c main_v1 (by decide)).trans (b1_src m ρ c)
  dst := (W2_of_ne m ρ c main_v3 (by decide)).trans (b1_dst m ρ c)
  xe := (W2_arr m ρ c 2).trans ((arr0 (V1 m ρ) c).trans (congrArg₂ Cert.Spec.mmT (b1_x m ρ c) (b1_w1 m ρ c)))
  w2 := (W2_of_ne m ρ c main_arg3 (by decide)).trans (b1_w2 m ρ c)
  w3 := (W2_of_ne m ρ c main_arg4 (by decide)).trans (b1_w3 m ρ c)

/-! ### Round 1 -/

theorem carried3 : Carried m c (W3 m ρ c) :=
  (carried2 m ρ c).host m c hostOps1_writes (by decide) (by decide) (by decide) (by decide) (by decide)
theorem b3_in : W3 m ρ c (Proc.devRef .tc main_v15) = msgIn zerosN (aE m c) :=
  (st1_in (W2 m ρ c)).trans (msg_congr rfl (carried2 m ρ c).src (carried2 m ρ c).dst)
theorem b3_out : W3 m ρ c (Proc.devRef .tc main_v25) = msgOut zerosN (aE m c) :=
  (st1_out (W2 m ρ c)).trans (msg_congr rfl (carried2 m ρ c).dst (carried2 m ρ c).src)

theorem b4_mu : W4 m ρ c (Proc.devRef .tc main_v26) = kmu1 (aX m c) (aE m c) (aW1 m c) (aW2 m c) (aW3 m c) :=
  (W4_arr m ρ c 5).trans ((arr1 (V3 m ρ) c).trans
    (upd_congr (carried3 m ρ c).xe (b3_in m ρ c) (b3_out m ρ c) (carried3 m ρ c).w2 (carried3 m ρ c).w3))
theorem carried4 : Carried m c (W4 m ρ c) where
  src := (W4_of_ne m ρ c main_v1 (by decide)).trans (carried3 m ρ c).src
  dst := (W4_of_ne m ρ c main_v3 (by decide)).trans (carried3 m ρ c).dst
  xe := (W4_in m ρ c 0 rfl).trans (carried3 m ρ c).xe
  w2 := (W4_in m ρ c 3 rfl).trans (carried3 m ρ c).w2
  w3 := (W4_in m ρ c 4 rfl).trans (carried3 m ρ c).w3

/-! ### Round 2 -/

theorem carried5 : Carried m c (W5 m ρ c) :=
  (carried4 m ρ c).host m c hostOps2_writes (by decide) (by decide) (by decide) (by decide) (by decide)
theorem b5_in : W5 m ρ c (Proc.devRef .tc main_v36) = msgIn (kmu1 (aX m c) (aE m c) (aW1 m c) (aW2 m c) (aW3 m c)) (aE m c) :=
  (st2_in (W4 m ρ c)).trans (msg_congr (b4_mu m ρ c) (carried4 m ρ c).src (carried4 m ρ c).dst)
theorem b5_out : W5 m ρ c (Proc.devRef .tc main_v46) = msgOut (kmu1 (aX m c) (aE m c) (aW1 m c) (aW2 m c) (aW3 m c)) (aE m c) :=
  (st2_out (W4 m ρ c)).trans (msg_congr (b4_mu m ρ c) (carried4 m ρ c).dst (carried4 m ρ c).src)

theorem b6_mu : W6 m ρ c (Proc.devRef .tc main_v47) = kmu2 (aX m c) (aE m c) (aW1 m c) (aW2 m c) (aW3 m c) :=
  (W6_arr m ρ c 5).trans ((arr2 (V5 m ρ) c).trans
    (upd_congr (carried5 m ρ c).xe (b5_in m ρ c) (b5_out m ρ c) (carried5 m ρ c).w2 (carried5 m ρ c).w3))
theorem carried6 : Carried m c (W6 m ρ c) where
  src := (W6_of_ne m ρ c main_v1 (by decide)).trans (carried5 m ρ c).src
  dst := (W6_of_ne m ρ c main_v3 (by decide)).trans (carried5 m ρ c).dst
  xe := (W6_in m ρ c 0 rfl).trans (carried5 m ρ c).xe
  w2 := (W6_in m ρ c 3 rfl).trans (carried5 m ρ c).w2
  w3 := (W6_in m ρ c 4 rfl).trans (carried5 m ρ c).w3

/-! ### Round 3 -/

theorem carried7 : Carried m c (W7 m ρ c) :=
  (carried6 m ρ c).host m c hostOps3_writes (by decide) (by decide) (by decide) (by decide) (by decide)
theorem b7_in : W7 m ρ c (Proc.devRef .tc main_v57) = msgIn (kmu2 (aX m c) (aE m c) (aW1 m c) (aW2 m c) (aW3 m c)) (aE m c) :=
  (st3_in (W6 m ρ c)).trans (msg_congr (b6_mu m ρ c) (carried6 m ρ c).src (carried6 m ρ c).dst)
theorem b7_out : W7 m ρ c (Proc.devRef .tc main_v67) = msgOut (kmu2 (aX m c) (aE m c) (aW1 m c) (aW2 m c) (aW3 m c)) (aE m c) :=
  (st3_out (W6 m ρ c)).trans (msg_congr (b6_mu m ρ c) (carried6 m ρ c).dst (carried6 m ρ c).src)

theorem b8_mu : W8 m ρ c (Proc.devRef .tc main_v68) = kmu3 (aX m c) (aE m c) (aW1 m c) (aW2 m c) (aW3 m c) :=
  (W8_arr m ρ c 5).trans ((arr3 (V7 m ρ) c).trans
    (upd_congr (carried7 m ρ c).xe (b7_in m ρ c) (b7_out m ρ c) (carried7 m ρ c).w2 (carried7 m ρ c).w3))

/-! ### The column sums and the result -/

theorem b9_sum : W9 m ρ c (Proc.devRef .tc main_v69)
    = fun i : S1x128.Idx => Cert.Spec.colsumc (kmu3 (aX m c) (aE m c) (aW1 m c) (aW2 m c) (aW3 m c)) (i 1) :=
  (W9_arr m ρ c 1).trans ((arr4 (V8 m ρ) c).trans
    (congrArg (fun mu : Cert.Spec.SN.Idx → EReal => fun i : S1x128.Idx => Cert.Spec.colsumc mu (i 1)) (b8_mu m ρ c)))

/-- The result buffer at the end of the run: the column sums of the third round's features, the three rounds computed
    from the launch arguments. -/
theorem result_v70 (c : Dev nD) : W10 (F := Ideal) m ρ c (Proc.devRef .tc main_v70)
    = Cert.Spec.colsum (kmu3 (m ((c : Thread nD τ).loc main_arg0)) (m ((c : Thread nD τ).loc main_arg1))
        (m ((c : Thread nD τ).loc main_arg2)) (m ((c : Thread nD τ).loc main_arg3)) (m ((c : Thread nD τ).loc main_arg4))) :=
  colsum_of_row (W9 m ρ c) _ (b9_sum m ρ c)

end Run

end Cert.KernelIdeal.Hand

end
-- ==== Proof.RefGen.lean ====
/- The reference program's run and its read-at-an-index lemmas, brought into scope for the modules that compare the two sides. -/
import proofs.«141754_j13958643712644_1_alg».proof.Proof.Gen.ReferenceIdeal.Run
import proofs.«141754_j13958643712644_1_alg».proof.Proof.Gen.ReferenceIdeal.Read
-- ==== Proof.RefMsg.lean ====
/-
  The message aggregation between two update rounds, as one function of the node features and the edge list: the
  source (row 0) and target (row 1) node of every edge are read off the [2, E] edge array; `msg mu gi si` gathers the
  rows of `mu` at the indices `gi` (a negative index is first shifted up by the row count, as jnp normalises it) and
  adds each gathered row into the row `si` names of an array of zeros. The incoming messages are `msg mu src dst`,
  the outgoing ones `msg mu dst src`. The operations are the program's own host operations, kept unopened.
-/
import proofs.«141754_j13958643712644_1_alg».proof.Proof.Gen.ReferenceIdeal

noncomputable section

namespace Cert.ReferenceIdeal.Hand

open Cert.ReferenceIdeal Cert.ReferenceIdeal.Gen Idealize.ShloMosaic

variable {F : FTy → Type} [FloatOps F]

/-- Row 0 of the edge array: every edge's source node. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge array: every edge's target node. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The array of zeros the aggregation adds into, and the first round's node features. -/
def zerosN : (⟨S100000x128, .f32⟩ : BufTy).Contents (Elt F) :=
  broadcastInDim S100000x128 ![] bcast_S_S100000x128 (constant S_ .f32 0x00000000#32)

/-- Gather the rows of `mu` at `gi` (negative indices shifted by 100000), add each into row `si` of zeros. -/
def msg (mu : (⟨S100000x128, .f32⟩ : BufTy).Contents (Elt F)) (gi si : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 si)
    (Host.gather gather_S100000x128_S1600000x1_S1600000x128_1_0_n_n_0_1_1128 mu
      (broadcastInDim S1600000x1 ![0] bcast_S1600000_S1600000x1_0
        (select (cmpi .slt gi (broadcastInDim S1600000 ![] bcast_S_S1600000 (constantI S_ 32 0#32)))
          (addi gi (broadcastInDim S1600000 ![] bcast_S_S1600000 (constantI S_ 32 100000#32))) gi)))

/-- The messages arriving at each node: gathered at the sources, summed at the targets. -/
def msgIn (mu : (⟨S100000x128, .f32⟩ : BufTy).Contents (Elt F)) (e : (⟨S2x1600000, .i32⟩ : BufTy).Contents (Elt F)) :
    (⟨S100000x128, .f32⟩ : BufTy).Contents (Elt F) := msg mu (srcOf e) (dstOf e)

/-- The messages leaving each node: gathered at the targets, summed at the sources. -/
def msgOut (mu : (⟨S100000x128, .f32⟩ : BufTy).Contents (Elt F)) (e : (⟨S2x1600000, .i32⟩ : BufTy).Contents (Elt F)) :
    (⟨S100000x128, .f32⟩ : BufTy).Contents (Elt F) := msg mu (dstOf e) (srcOf e)

end Cert.ReferenceIdeal.Hand

end
-- ==== Proof.Ref.lean ====
/-
  The reference network's result as the pure specification.

  The reference embeds the node features once, xe = x · W1ᵀ, starts from node states that are all zero, and three
  times replaces the states mu by max(xe + msgIn(mu) · W2ᵀ + msgOut(mu) · W3ᵀ, 0), where msgIn and msgOut are the
  message aggregations along the edge list (kept here as the unopened functions of the edge array). Its result is
  the sum of the final states over all nodes, column by column, added to an initial value 0.

  Over the extended reals each dense stage is read entry by entry: a product with a transposed weight matrix is the
  sum over k of x[p, k] · w[q, k]; the maximum against the zero array is a plain maximum with 0; the row sum added
  to 0 is the row sum. Chaining the three rounds gives the result as the specification's column sum of the third
  state.
-/
import proofs.«141754_j13958643712644_1_alg».proof.Proof.RefGen
import proofs.«141754_j13958643712644_1_alg».proof.Proof.Spec
import proofs.«141754_j13958643712644_1_alg».proof.Proof.RefMsg
import Idealize.ShloMosaic.PureOps.Ideal.Laws
import Idealize.ShloMosaic.Lib.ValueIdx

noncomputable section

open scoped BigOperators

namespace Cert.ReferenceIdeal.Hand

open Cert.ReferenceIdeal Cert.ReferenceIdeal.Gen Idealize.ShloMosaic Idealize.ShloMosaic.TcCoe Idealize.ShloMosaic.ValueIdx

/-- The node states after the first round: the states before it are all zero. -/
def mu1 (x : (⟨S100000x128, .f32⟩ : BufTy).Contents (Elt Ideal)) (e : (⟨S2x1600000, .i32⟩ : BufTy).Contents (Elt Ideal)) (w1 w2 w3 : (⟨S128x128, .f32⟩ : BufTy).Contents (Elt Ideal)) : (⟨S100000x128, .f32⟩ : BufTy).Contents (Elt Ideal) :=
  Cert.Spec.upd (Cert.Spec.mmT x w1) (msgIn zerosN e) (msgOut zerosN e) w2 w3

/-- The node states after the second round. -/
def mu2 (x : (⟨S100000x128, .f32⟩ : BufTy).Contents (Elt Ideal)) (e : (⟨S2x1600000, .i32⟩ : BufTy).Contents (Elt Ideal)) (w1 w2 w3 : (⟨S128x128, .f32⟩ : BufTy).Contents (Elt Ideal)) : (⟨S100000x128, .f32⟩ : BufTy).Contents (Elt Ideal) :=
  Cert.Spec.upd (Cert.Spec.mmT x w1) (msgIn (mu1 x e w1 w2 w3) e) (msgOut (mu1 x e w1 w2 w3) e) w2 w3

/-- The node states after the third round. -/
def mu3 (x : (⟨S100000x128, .f32⟩ : BufTy).Contents (Elt Ideal)) (e : (⟨S2x1600000, .i32⟩ : BufTy).Contents (Elt Ideal)) (w1 w2 w3 : (⟨S128x128, .f32⟩ : BufTy).Contents (Elt Ideal)) : (⟨S100000x128, .f32⟩ : BufTy).Contents (Elt Ideal) :=
  Cert.Spec.upd (Cert.Spec.mmT x w1) (msgIn (mu2 x e w1 w2 w3) e) (msgOut (mu2 x e w1 w2 w3) e) w2 w3

/-! ## The dense stages as the program spells them, over arbitrary arrays -/

section Stages

variable {F : FTy → Type} [FloatOps F]

/-- x · wᵀ as the program spells it: w is transposed, then the second axis of x is contracted with its first. -/
def dotT (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x
    (transpose S128x128 [1, 0] w transposes_S128x128_S128x128_1_0)

/-- One round as the program spells it: the two products are added to xe, then the maximum with the zero array. -/
def roundOf (xe mi mo : (⟨S100000x128, .f32⟩ : BufTy).Contents (Elt F)) (w2 w3 : (⟨S128x128, .f32⟩ : BufTy).Contents (Elt F)) : (⟨S100000x128, .f32⟩ : BufTy).Contents (Elt F) :=
  maximumf (addf (addf xe (dotT mi w2)) (dotT mo w3)) zerosN

end Stages

/-- Entry (p, q) of x · wᵀ is Σₖ x[p, k] · w[q, k]. -/
theorem dotT_eq (x : (⟨S100000x128, .f32⟩ : BufTy).Contents (Elt Ideal)) (w : (⟨S128x128, .f32⟩ : BufTy).Contents (Elt Ideal)) : dotT (F := Ideal) x w = Cert.Spec.mmT x w := by
  funext i
  obtain ⟨p, q, rfl⟩ : ∃ (p : Fin 100000) (q : Fin 128), i = ix2 p q := ⟨i 0, i 1, eq_ix2 i⟩
  refine (Read.val_main_v5_apply x w (ix2 p q)).trans ?_
  show _ = ∑ k : Fin 128, x (ix2 p k) * w (ix2 q k)
  refine Finset.sum_congr rfl fun k _ => ?_
  rw [Read.val_main_v4_apply]
  have hl : Read.lidx_main_v5 (ix2 p q) k = ix2 p k := by
    funext a; match a with | ⟨0, _⟩ => rfl | ⟨1, _⟩ => rfl
  have hr : Read.idx_main_v4 (Read.ridx_main_v5 (ix2 p q) k) = ix2 q k := by
    funext a; match a with | ⟨0, _⟩ => rfl | ⟨1, _⟩ => rfl
  rw [hl, hr]

/-- The array of zeros read at an index. -/
theorem zerosN_apply (i : S100000x128.Idx) : (zerosN (F := Ideal)) i = 0 := by
  refine (Read.val_main_v6_apply (F := Ideal) i).trans ?_
  rw [Read.val_main_cst_apply, Ideal.ofBits_def, Ideal.ofBits_zero_f32]

/-- One round, entry by entry: max(xe + mi · w2ᵀ + mo · w3ᵀ, 0). -/
theorem roundOf_eq (xe mi mo : (⟨S100000x128, .f32⟩ : BufTy).Contents (Elt Ideal)) (w2 w3 : (⟨S128x128, .f32⟩ : BufTy).Contents (Elt Ideal)) :
    roundOf (F := Ideal) xe mi mo w2 w3 = Cert.Spec.upd xe mi mo w2 w3 := by
  unfold roundOf
  rw [dotT_eq, dotT_eq]
  funext i
  obtain ⟨p, q, rfl⟩ : ∃ (p : Fin 100000) (q : Fin 128), i = ix2 p q := ⟨i 0, i 1, eq_ix2 i⟩
  show max (xe (ix2 p q) + Cert.Spec.mmT mi w2 (ix2 p q) + Cert.Spec.mmT mo w3 (ix2 p q)) ((zerosN (F := Ideal)) (ix2 p q))
    = max (xe (ix2 p q) + Cert.Spec.mmTc mi w2 p q + Cert.Spec.mmTc mo w3 p q) 0
  rw [zerosN_apply]
  rfl

/-! ## The three rounds of the printed program -/

section Rounds

variable (x : (⟨S100000x128, .f32⟩ : BufTy).Contents (Elt Ideal)) (e : (⟨S2x1600000, .i32⟩ : BufTy).Contents (Elt Ideal)) (w1 w2 w3 : (⟨S128x128, .f32⟩ : BufTy).Contents (Elt Ideal))

theorem round1 : Read.val_main_v33 (F := Ideal) x e w1 w2 w3 = mu1 x e w1 w2 w3 := by
  have h : Read.val_main_v33 (F := Ideal) x e w1 w2 w3
      = roundOf (dotT x w1) (msgIn zerosN e) (msgOut zerosN e) w2 w3 := rfl
  rw [h, roundOf_eq, dotT_eq]
  rfl

theorem round2 : Read.val_main_v60 (F := Ideal) x e w1 w2 w3 = mu2 x e w1 w2 w3 := by
  have h : Read.val_main_v60 (F := Ideal) x e w1 w2 w3
      = roundOf (dotT x w1) (msgIn (Read.val_main_v33 (F := Ideal) x e w1 w2 w3) e)
          (msgOut (Read.val_main_v33 (F := Ideal) x e w1 w2 w3) e) w2 w3 := rfl
  rw [h, roundOf_eq, dotT_eq, round1]
  rfl

theorem round3 : Read.val_main_v87 (F := Ideal) x e w1 w2 w3 = mu3 x e w1 w2 w3 := by
  have h : Read.val_main_v87 (F := Ideal) x e w1 w2 w3
      = roundOf (dotT x w1) (msgIn (Read.val_main_v60 (F := Ideal) x e w1 w2 w3) e)
          (msgOut (Read.val_main_v60 (F := Ideal) x e w1 w2 w3) e) w2 w3 := rfl
  rw [h, roundOf_eq, dotT_eq, round2]
  rfl

/-- The last stage: the row sum of the third state, added to 0. -/
theorem sum_eq : Read.val_main_v88 (F := Ideal) x e w1 w2 w3 = Cert.Spec.colsum (mu3 x e w1 w2 w3) := by
  funext j
  obtain ⟨q, rfl⟩ : ∃ q : Fin 128, j = ix1 q := ⟨j 0, eq_ix1 j⟩
  rw [Read.val_main_v88_apply, round3, Read.val_main_cst_17_apply, Ideal.ofBits_def, Ideal.ofBits_zero_f32, zero_add]
  show _ = ∑ r : Fin 100000, mu3 x e w1 w2 w3 (ix2 r q)
  refine Finset.sum_congr rfl fun r _ => ?_
  exact congrArg (mu3 x e w1 w2 w3) (funext fun a => by match a with | ⟨0, _⟩ => rfl | ⟨1, _⟩ => rfl)

end Rounds

/-- The reference's result is the column sum of the third round's node states. -/
theorem ref_result (m : (ℓ : Loc nD τ sig) → Buf (Elt Ideal) ℓ) (c : Dev nD) :
    Cert.ReferenceIdeal.Value.res_main_v88 (F := Ideal) m c
      = Cert.Spec.colsum (mu3 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))) :=
  (Read.val_main_v88_eq m c).trans (sum_eq _ _ _ _ _)

end Cert.ReferenceIdeal.Hand

end
-- ==== Proof.MsgEq.lean ====
/-
  The message aggregation is one function, whichever of the two programs spells it: both apply the same host gather and
  scatter-add, with the same dimension numbers, to the same operands.
-/
import proofs.«141754_j13958643712644_1_alg».proof.Proof.KI.Msg
import proofs.«141754_j13958643712644_1_alg».proof.Proof.RefMsg
import Idealize.ShloMosaic.PureOps.Ideal

noncomputable section

namespace Cert.Proof.MsgEq

open Idealize.ShloMosaic

theorem msgIn_eq (mu : (⟨Cert.KernelIdeal.S100000x128, .f32⟩ : BufTy).Contents (Elt Ideal))
    (e : (⟨Cert.KernelIdeal.S2x1600000, .i32⟩ : BufTy).Contents (Elt Ideal)) :
    Cert.KernelIdeal.Hand.msgIn (F := Ideal) mu e = Cert.ReferenceIdeal.Hand.msgIn (F := Ideal) mu e := rfl

theorem msgOut_eq (mu : (⟨Cert.KernelIdeal.S100000x128, .f32⟩ : BufTy).Contents (Elt Ideal))
    (e : (⟨Cert.KernelIdeal.S2x1600000, .i32⟩ : BufTy).Contents (Elt Ideal)) :
    Cert.KernelIdeal.Hand.msgOut (F := Ideal) mu e = Cert.ReferenceIdeal.Hand.msgOut (F := Ideal) mu e := rfl

theorem zerosN_eq : (Cert.KernelIdeal.Hand.zerosN (F := Ideal)) = Cert.ReferenceIdeal.Hand.zerosN (F := Ideal) := rfl

end Cert.Proof.MsgEq

end
-- ==== Proof.lean ====
/-
  A three-round message-passing network over a graph of 100000 nodes and 1.6 million directed edges, fused into five
  tiled kernels, against its plain array reference.

  Both programs compute, over the extended reals,
      x_emb = x · W1ᵀ,   mu₀ = 0,   mu' = max(x_emb + msg_in(mu) · W2ᵀ + msg_out(mu) · W3ᵀ, 0)  (three rounds),
      h = the sum of mu₃ over all rows,
  where msg_in gathers the rows of mu at every edge's source and sums them at its target, and msg_out the other way
  round. The kernel program does the three dense stages tile by tile (20 tiles of 5000 rows): a tile of x · W1ᵀ is the
  product of the tile of x with W1ᵀ; a tile of the update is the update of the tiles; the row sum is accumulated tile by
  tile in a scratch row that starts at zero and is copied out after the last tile. The aggregation between rounds is
  the same host gather and scatter-add in both programs and is never opened.

  * the kernel programs' runs (word level and idealized): every region's tiles cover its output array, the scratch
    row after tile n holds the sum over the tiles up to n, and the arguments are never written;
  * the idealized kernel's result: the boundary contents read back from the last boundary to the launch memory;
  * the reference's result: its generated run, read stage by stage;
  * the two results are the same function of the arguments: a product with a transposed matrix is the same sum
    however it is tiled, and a sum over 100000 rows is the sum over 20 tiles of the sums over 5000 rows
    (addition of extended reals is commutative and associative; no finiteness is used).
-/
import proofs.«141754_j13958643712644_1_alg».proof.Defs
import proofs.«141754_j13958643712644_1_alg».proof.Proof.Gen.Kernel
import proofs.«141754_j13958643712644_1_alg».proof.Proof.Gen.KernelIdeal
import proofs.«141754_j13958643712644_1_alg».proof.Proof.Gen.ReferenceIdeal
import proofs.«141754_j13958643712644_1_alg».proof.Proof.Gen.Pre_finite_inputs
import proofs.«141754_j13958643712644_1_alg».proof.Proof.K.Run
import proofs.«141754_j13958643712644_1_alg».proof.Proof.KI.Run
import proofs.«141754_j13958643712644_1_alg».proof.Proof.KI.Chain
import proofs.«141754_j13958643712644_1_alg».proof.Proof.Ref
import proofs.«141754_j13958643712644_1_alg».proof.Proof.MsgEq

noncomputable section

namespace Cert.Proof

open Idealize.ShloMosaic Idealize.ShloMosaic.TcCoe Idealize.SL.Sem

/-- The three rounds are one function of the arguments, whichever program's copy of the aggregation spells them. -/
theorem rounds_eq (x : (⟨Cert.KernelIdeal.S100000x128, .f32⟩ : BufTy).Contents (Elt Ideal))
    (e : (⟨Cert.KernelIdeal.S2x1600000, .i32⟩ : BufTy).Contents (Elt Ideal))
    (w1 w2 w3 : (⟨Cert.KernelIdeal.S128x128, .f32⟩ : BufTy).Contents (Elt Ideal)) :
    Cert.ReferenceIdeal.Hand.mu3 x e w1 w2 w3 = Cert.KernelIdeal.Hand.kmu3 x e w1 w2 w3 := rfl

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the row sum of the third round's features, the same function of arguments that
    agree. -/
theorem algebraic : Cert.algebraic_KernelIdeal_ReferenceIdeal := by
  intro m ρ m' ρ' _ hagree
  refine ⟨_, (θ_run Cert.KernelIdeal.defs _ _).mono (fun r h c =>
      ⟨(h c _ (Cert.KernelIdeal.Hand.mem_uc Cert.KernelIdeal.main_v70 (by decide))).trans (Cert.KernelIdeal.Hand.result_v70 m ρ c),
        (h c _ (Cert.KernelIdeal.Hand.mem_uc Cert.KernelIdeal.main_arg0 (by decide))).trans (Cert.KernelIdeal.Hand.W10_main_arg0 m ρ c),
        (h c _ (Cert.KernelIdeal.Hand.mem_uc Cert.KernelIdeal.main_arg1 (by decide))).trans (Cert.KernelIdeal.Hand.W10_main_arg1 m ρ c),
        (h c _ (Cert.KernelIdeal.Hand.mem_uc Cert.KernelIdeal.main_arg2 (by decide))).trans (Cert.KernelIdeal.Hand.W10_main_arg2 m ρ c),
        (h c _ (Cert.KernelIdeal.Hand.mem_uc Cert.KernelIdeal.main_arg3 (by decide))).trans (Cert.KernelIdeal.Hand.W10_main_arg3 m ρ c),
        (h c _ (Cert.KernelIdeal.Hand.mem_uc Cert.KernelIdeal.main_arg4 (by decide))).trans (Cert.KernelIdeal.Hand.W10_main_arg4 m ρ c)⟩)
      (Cert.KernelIdeal.Hand.run_all (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.ref_result m' c, (hagree c).1, (hagree c).2.1, (hagree c).2.2.1, (hagree c).2.2.2.1,
    (hagree c).2.2.2.2, rounds_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
